-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x32x128 : Shape := ⟨4, ![4, 1, 32, 128]⟩
abbrev S4x32x64x128 : Shape := ⟨4, ![4, 32, 64, 128]⟩
abbrev S4x32x128x62 : Shape := ⟨4, ![4, 32, 128, 62]⟩
abbrev S4x32x3968x2 : Shape := ⟨4, ![4, 32, 3968, 2]⟩
abbrev S4x32x128x3968 : Shape := ⟨4, ![4, 32, 128, 3968]⟩
abbrev S4x32x3968x128 : Shape := ⟨4, ![4, 32, 3968, 128]⟩
abbrev S_ : Shape := ⟨0, ![]⟩

class Facts : Prop where
  bcast_S_S4x1x32x128 : S_.BroadcastsInDim S4x1x32x128 (![] : Fin 0 → Fin S4x1x32x128.rank)
  reducesTo_S4x1x32x128_S_d0_1_2_3 : S4x1x32x128.ReducesTo [0, 1, 2, 3] S_
  h_S_ : 0 < S_.numel
  bcast_S_S4x32x64x128 : S_.BroadcastsInDim S4x32x64x128 (![] : Fin 0 → Fin S4x32x64x128.rank)
  reducesTo_S4x32x64x128_S_d0_1_2_3 : S4x32x64x128.ReducesTo [0, 1, 2, 3] S_
  bcast_S_S4x32x128x62 : S_.BroadcastsInDim S4x32x128x62 (![] : Fin 0 → Fin S4x32x128x62.rank)
  reducesTo_S4x32x128x62_S_d0_1_2_3 : S4x32x128x62.ReducesTo [0, 1, 2, 3] S_
  bcast_S_S4x32x3968x2 : S_.BroadcastsInDim S4x32x3968x2 (![] : Fin 0 → Fin S4x32x3968x2.rank)
  reducesTo_S4x32x3968x2_S_d0_1_2_3 : S4x32x3968x2.ReducesTo [0, 1, 2, 3] S_

variable [Facts]

def fn_part2 {F : FTy → Type} [FloatOps F] (main_arg7 : FVec F S4x32x3968x2 .f32) (main_arg8 : FVec F S4x32x3968x2 .f32) (main_v33 : IVec S_ 1) : IVec S_ 1 :=
  let main_v34 : FVec F S4x32x3968x2 .f32 := Host.absf main_arg7
  let main_cst_12 : FVec F S_ .f32 := constant S_ .f32 0x7F800000#32
  let main_v35 : FVec F S4x32x3968x2 .f32 := broadcastInDim S4x32x3968x2 ![] bcast_S_S4x32x3968x2 main_cst_12
  let main_v36 : IVec S4x32x3968x2 1 := cmpf .olt main_v34 main_v35
  let main_c_13 : IVec S_ 1 := constantI S_ 1 1#1
  let main_v37 : IVec S_ 1 := (fun x v => Host.reduce IntOp.andi x v reducesTo_S4x32x3968x2_S_d0_1_2_3 h_S_) main_v36 main_c_13
  let main_v38 : IVec S_ 1 := andi main_v33 main_v37
  let main_v39 : FVec F S4x32x3968x2 .f32 := Host.absf main_arg8
  let main_cst_14 : FVec F S_ .f32 := constant S_ .f32 0x7F800000#32
  let main_v40 : FVec F S4x32x3968x2 .f32 := broadcastInDim S4x32x3968x2 ![] bcast_S_S4x32x3968x2 main_cst_14
  let main_v41 : IVec S4x32x3968x2 1 := cmpf .olt main_v39 main_v40
  let main_c_15 : IVec S_ 1 := constantI S_ 1 1#1
  let main_v42 : IVec S_ 1 := (fun x v => Host.reduce IntOp.andi x v reducesTo_S4x32x3968x2_S_d0_1_2_3 h_S_) main_v41 main_c_15
  let main_v43 : IVec S_ 1 := andi main_v38 main_v42
  main_v43

def fn_part1 {F : FTy → Type} [FloatOps F] (main_arg4 : FVec F S4x32x64x128 .f32) (main_arg5 : FVec F S4x32x128x62 .f32) (main_arg6 : FVec F S4x32x128x62 .f32) (main_arg7 : FVec F S4x32x3968x2 .f32) (main_arg8 : FVec F S4x32x3968x2 .f32) (main_v13 : IVec S_ 1) (main_v16 : IVec S4x32x64x128 1) : IVec S_ 1 :=
  let main_c_5 : IVec S_ 1 := constantI S_ 1 1#1
  let main_v17 : IVec S_ 1 := (fun x v => Host.reduce IntOp.andi x v reducesTo_S4x32x64x128_S_d0_1_2_3 h_S_) main_v16 main_c_5
  let main_v18 : IVec S_ 1 := andi main_v13 main_v17
  let main_v19 : FVec F S4x32x64x128 .f32 := Host.absf main_arg4
  let main_cst_6 : FVec F S_ .f32 := constant S_ .f32 0x7F800000#32
  let main_v20 : FVec F S4x32x64x128 .f32 := broadcastInDim S4x32x64x128 ![] bcast_S_S4x32x64x128 main_cst_6
  let main_v21 : IVec S4x32x64x128 1 := cmpf .olt main_v19 main_v20
  let main_c_7 : IVec S_ 1 := constantI S_ 1 1#1
  let main_v22 : IVec S_ 1 := (fun x v => Host.reduce IntOp.andi x v reducesTo_S4x32x64x128_S_d0_1_2_3 h_S_) main_v21 main_c_7
  let main_v23 : IVec S_ 1 := andi main_v18 main_v22
  let main_v24 : FVec F S4x32x128x62 .f32 := Host.absf main_arg5
  let main_cst_8 : FVec F S_ .f32 := constant S_ .f32 0x7F800000#32
  let main_v25 : FVec F S4x32x128x62 .f32 := broadcastInDim S4x32x128x62 ![] bcast_S_S4x32x128x62 main_cst_8
  let main_v26 : IVec S4x32x128x62 1 := cmpf .olt main_v24 main_v25
  let main_c_9 : IVec S_ 1 := constantI S_ 1 1#1
  let main_v27 : IVec S_ 1 := (fun x v => Host.reduce IntOp.andi x v reducesTo_S4x32x128x62_S_d0_1_2_3 h_S_) main_v26 main_c_9
  let main_v28 : IVec S_ 1 := andi main_v23 main_v27
  let main_v29 : FVec F S4x32x128x62 .f32 := Host.absf main_arg6
  let main_cst_10 : FVec F S_ .f32 := constant S_ .f32 0x7F800000#32
  let main_v30 : FVec F S4x32x128x62 .f32 := broadcastInDim S4x32x128x62 ![] bcast_S_S4x32x128x62 main_cst_10
  let main_v31 : IVec S4x32x128x62 1 := cmpf .olt main_v29 main_v30
  let main_c_11 : IVec S_ 1 := constantI S_ 1 1#1
  let main_v32 : IVec S_ 1 := (fun x v => Host.reduce IntOp.andi x v reducesTo_S4x32x128x62_S_d0_1_2_3 h_S_) main_v31 main_c_11
  let main_v33 : IVec S_ 1 := andi main_v28 main_v32
  fn_part2 (F := F) main_arg7 main_arg8 main_v33

def fn {F : FTy → Type} [FloatOps F] (main_arg0 : FVec F S4x1x32x128 .f32) (main_arg1 : FVec F S4x1x32x128 .f32) (main_arg2 : FVec F S4x1x32x128 .f32) (main_arg3 : FVec F S4x32x64x128 .f32) (main_arg4 : FVec F S4x32x64x128 .f32) (main_arg5 : FVec F S4x32x128x62 .f32) (main_arg6 : FVec F S4x32x128x62 .f32) (main_arg7 : FVec F S4x32x3968x2 .f32) (main_arg8 : FVec F S4x32x3968x2 .f32) (main_arg9 : IVec S4x32x128x3968 32) (main_arg10 : IVec S4x32x3968x128 32) : IVec S_ 1 :=
  let main_v0 : FVec F S4x1x32x128 .f32 := Host.absf main_arg0
  let main_cst : FVec F S_ .f32 := constant S_ .f32 0x7F800000#32
  let main_v1 : FVec F S4x1x32x128 .f32 := broadcastInDim S4x1x32x128 ![] bcast_S_S4x1x32x128 main_cst
  let main_v2 : IVec S4x1x32x128 1 := cmpf .olt main_v0 main_v1
  let main_c : IVec S_ 1 := constantI S_ 1 1#1
  let main_v3 : IVec S_ 1 := (fun x v => Host.reduce IntOp.andi x v reducesTo_S4x1x32x128_S_d0_1_2_3 h_S_) main_v2 main_c
  let main_v4 : FVec F S4x1x32x128 .f32 := Host.absf main_arg1
  let main_cst_0 : FVec F S_ .f32 := constant S_ .f32 0x7F800000#32
  let main_v5 : FVec F S4x1x32x128 .f32 := broadcastInDim S4x1x32x128 ![] bcast_S_S4x1x32x128 main_cst_0
  let main_v6 : IVec S4x1x32x128 1 := cmpf .olt main_v4 main_v5
  let main_c_1 : IVec S_ 1 := constantI S_ 1 1#1
  let main_v7 : IVec S_ 1 := (fun x v => Host.reduce IntOp.andi x v reducesTo_S4x1x32x128_S_d0_1_2_3 h_S_) main_v6 main_c_1
  let main_v8 : IVec S_ 1 := andi main_v3 main_v7
  let main_v9 : FVec F S4x1x32x128 .f32 := Host.absf main_arg2
  let main_cst_2 : FVec F S_ .f32 := constant S_ .f32 0x7F800000#32
  let main_v10 : FVec F S4x1x32x128 .f32 := broadcastInDim S4x1x32x128 ![] bcast_S_S4x1x32x128 main_cst_2
  let main_v11 : IVec S4x1x32x128 1 := cmpf .olt main_v9 main_v10
  let main_c_3 : IVec S_ 1 := constantI S_ 1 1#1
  let main_v12 : IVec S_ 1 := (fun x v => Host.reduce IntOp.andi x v reducesTo_S4x1x32x128_S_d0_1_2_3 h_S_) main_v11 main_c_3
  let main_v13 : IVec S_ 1 := andi main_v8 main_v12
  let main_v14 : FVec F S4x32x64x128 .f32 := Host.absf main_arg3
  let main_cst_4 : FVec F S_ .f32 := constant S_ .f32 0x7F800000#32
  let main_v15 : FVec F S4x32x64x128 .f32 := broadcastInDim S4x32x64x128 ![] bcast_S_S4x32x64x128 main_cst_4
  let main_v16 : IVec S4x32x64x128 1 := cmpf .olt main_v14 main_v15
  fn_part1 (F := F) main_arg4 main_arg5 main_arg6 main_arg7 main_arg8 main_v13 main_v16
-- ==== Kernel.lean ====
abbrev S4x1x32x128 : Shape := ⟨4, ![4, 1, 32, 128]⟩
abbrev S4x32x64x128 : Shape := ⟨4, ![4, 32, 64, 128]⟩
abbrev S4x32x128x62 : Shape := ⟨4, ![4, 32, 128, 62]⟩
abbrev S4x32x3968x2 : Shape := ⟨4, ![4, 32, 3968, 2]⟩
abbrev S4x32x128x3968 : Shape := ⟨4, ![4, 32, 128, 3968]⟩
abbrev S4x32x3968x128 : Shape := ⟨4, ![4, 32, 3968, 128]⟩
abbrev S4x32x1x128 : Shape := ⟨4, ![4, 32, 1, 128]⟩
abbrev S1x1x1x128 : Shape := ⟨4, ![1, 1, 1, 128]⟩
abbrev S1x1x64x128 : Shape := ⟨4, ![1, 1, 64, 128]⟩
abbrev S1x1x128x62 : Shape := ⟨4, ![1, 1, 128, 62]⟩
abbrev S1x1x3968x2 : Shape := ⟨4, ![1, 1, 3968, 2]⟩
abbrev S1x1x128x3968 : Shape := ⟨4, ![1, 1, 128, 3968]⟩
abbrev S1x1x3968x128 : Shape := ⟨4, ![1, 1, 3968, 128]⟩
abbrev S1x128 : Shape := ⟨2, ![1, 128]⟩
abbrev S64x128 : Shape := ⟨2, ![64, 128]⟩
abbrev S128x62 : Shape := ⟨2, ![128, 62]⟩
abbrev S3968x2 : Shape := ⟨2, ![3968, 2]⟩
abbrev S128x3968 : Shape := ⟨2, ![128, 3968]⟩
abbrev S3968x128 : Shape := ⟨2, ![3968, 128]⟩
abbrev S128x62x64 : Shape := ⟨3, ![128, 62, 64]⟩
abbrev S128x62x1 : Shape := ⟨3, ![128, 62, 1]⟩
abbrev S1x3968 : Shape := ⟨2, ![1, 3968]⟩
abbrev S65x128 : Shape := ⟨2, ![65, 128]⟩
abbrev S128x65 : Shape := ⟨2, ![128, 65]⟩
abbrev S1x65 : Shape := ⟨2, ![1, 65]⟩
abbrev S1x4033 : Shape := ⟨2, ![1, 4033]⟩
abbrev S1 : Shape := ⟨1, ![1]⟩
abbrev S1x1 : Shape := ⟨2, ![1, 1]⟩
abbrev S3968x2x64 : Shape := ⟨3, ![3968, 2, 64]⟩
abbrev S3968x2x1 : Shape := ⟨3, ![3968, 2, 1]⟩

abbrev nBuf : Space → Nat
  | .hbm => 16
  | .vmem => 24
  | .smem => 0
  | _ => 0

abbrev bufTy : (tb : Table) → Fin (tcTables nBuf tb) → BufTy
  | .hbm, ⟨0, _⟩ => ⟨S4x1x32x128, .f32⟩
  | .hbm, ⟨1, _⟩ => ⟨S4x1x32x128, .f32⟩
  | .hbm, ⟨2, _⟩ => ⟨S4x1x32x128, .f32⟩
  | .hbm, ⟨3, _⟩ => ⟨S4x32x64x128, .f32⟩
  | .hbm, ⟨4, _⟩ => ⟨S4x32x64x128, .f32⟩
  | .hbm, ⟨5, _⟩ => ⟨S4x32x128x62, .f32⟩
  | .hbm, ⟨6, _⟩ => ⟨S4x32x128x62, .f32⟩
  | .hbm, ⟨7, _⟩ => ⟨S4x32x3968x2, .f32⟩
  | .hbm, ⟨8, _⟩ => ⟨S4x32x3968x2, .f32⟩
  | .hbm, ⟨9, _⟩ => ⟨S4x32x128x3968, .i32⟩
  | .hbm, ⟨10, _⟩ => ⟨S4x32x3968x128, .i32⟩
  | .hbm, ⟨11, _⟩ => ⟨S4x32x1x128, .f32⟩
  | .hbm, ⟨12, _⟩ => ⟨S4x32x1x128, .f32⟩
  | .hbm, ⟨13, _⟩ => ⟨S4x32x1x128, .f32⟩
  | .hbm, ⟨14, _⟩ => ⟨S4x32x1x128, .f32⟩
  | .hbm, ⟨15, _⟩ => ⟨S4x1x32x128, .f32⟩
  | .local _ .vmem, ⟨0, _⟩ => ⟨S1x1x1x128, .f32⟩
  | .local _ .vmem, ⟨1, _⟩ => ⟨S1x1x1x128, .f32⟩
  | .local _ .vmem, ⟨2, _⟩ => ⟨S1x1x1x128, .f32⟩
  | .local _ .vmem, ⟨3, _⟩ => ⟨S1x1x1x128, .f32⟩
  | .local _ .vmem, ⟨4, _⟩ => ⟨S1x1x1x128, .f32⟩
  | .local _ .vmem, ⟨5, _⟩ => ⟨S1x1x1x128, .f32⟩
  | .local _ .vmem, ⟨6, _⟩ => ⟨S1x1x64x128, .f32⟩
  | .local _ .vmem, ⟨7, _⟩ => ⟨S1x1x64x128, .f32⟩
  | .local _ .vmem, ⟨8, _⟩ => ⟨S1x1x64x128, .f32⟩
  | .local _ .vmem, ⟨9, _⟩ => ⟨S1x1x64x128, .f32⟩
  | .local _ .vmem, ⟨10, _⟩ => ⟨S1x1x128x62, .f32⟩
  | .local _ .vmem, ⟨11, _⟩ => ⟨S1x1x128x62, .f32⟩
  | .local _ .vmem, ⟨12, _⟩ => ⟨S1x1x128x62, .f32⟩
  | .local _ .vmem, ⟨13, _⟩ => ⟨S1x1x128x62, .f32⟩
  | .local _ .vmem, ⟨14, _⟩ => ⟨S1x1x3968x2, .f32⟩
  | .local _ .vmem, ⟨15, _⟩ => ⟨S1x1x3968x2, .f32⟩
  | .local _ .vmem, ⟨16, _⟩ => ⟨S1x1x3968x2, .f32⟩
  | .local _ .vmem, ⟨17, _⟩ => ⟨S1x1x3968x2, .f32⟩
  | .local _ .vmem, ⟨18, _⟩ => ⟨S1x1x128x3968, .i32⟩
  | .local _ .vmem, ⟨19, _⟩ => ⟨S1x1x128x3968, .i32⟩
  | .local _ .vmem, ⟨20, _⟩ => ⟨S1x1x3968x128, .i32⟩
  | .local _ .vmem, ⟨21, _⟩ => ⟨S1x1x3968x128, .i32⟩
  | .local _ .vmem, ⟨22, _⟩ => ⟨S1x1x1x128, .f32⟩
  | .local _ .vmem, ⟨23, _⟩ => ⟨S1x1x1x128, .f32⟩
  | _, _ => ⟨S4x1x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x62 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x62 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3968x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x3968x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x3968 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x3968x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S4x1x32x128_S4x32x1x128_0_2_1_3 : S4x1x32x128.Transposes [0, 2, 1, 3] S4x32x1x128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x128 : S1x1x1x128.ShapeCasts S1x128
  inb_S1x1x64x128_S1x1x64x128_0_0_0_0 : ∀ a, (![0, 0, 0, 0] : Fin 4 → Nat) a + S1x1x64x128.size a ≤ S1x1x64x128.size a
  h_S1x1x64x128 : 0 < S1x1x64x128.numel
  shapeCasts_S1x1x64x128_S64x128 : S1x1x64x128.ShapeCasts S64x128
  inb_S1x1x128x62_S1x1x128x62_0_0_0_0 : ∀ a, (![0, 0, 0, 0] : Fin 4 → Nat) a + S1x1x128x62.size a ≤ S1x1x128x62.size a
  h_S1x1x128x62 : 0 < S1x1x128x62.numel
  shapeCasts_S1x1x128x62_S128x62 : S1x1x128x62.ShapeCasts S128x62
  inb_S1x1x3968x2_S1x1x3968x2_0_0_0_0 : ∀ a, (![0, 0, 0, 0] : Fin 4 → Nat) a + S1x1x3968x2.size a ≤ S1x1x3968x2.size a
  h_S1x1x3968x2 : 0 < S1x1x3968x2.numel
  shapeCasts_S1x1x3968x2_S3968x2 : S1x1x3968x2.ShapeCasts S3968x2
  inb_S1x1x128x3968_S1x1x128x3968_0_0_0_0 : ∀ a, (![0, 0, 0, 0] : Fin 4 → Nat) a + S1x1x128x3968.size a ≤ S1x1x128x3968.size a
  h_S1x1x128x3968 : 0 < S1x1x128x3968.numel
  shapeCasts_S1x1x128x3968_S128x3968 : S1x1x128x3968.ShapeCasts S128x3968
  inb_S1x1x3968x128_S1x1x3968x128_0_0_0_0 : ∀ a, (![0, 0, 0, 0] : Fin 4 → Nat) a + S1x1x3968x128.size a ≤ S1x1x3968x128.size a
  h_S1x1x3968x128 : 0 < S1x1x3968x128.numel
  shapeCasts_S1x1x3968x128_S3968x128 : S1x1x3968x128.ShapeCasts S3968x128
  shapeCasts_S128x3968_S128x62x64 : S128x3968.ShapeCasts S128x62x64
  shapeCasts_S128x62_S128x62x1 : S128x62.ShapeCasts S128x62x1
  broadcasts_S128x62x1_S128x62x64 : S128x62x1.Broadcasts S128x62x64
  shapeCasts_S128x62x64_S128x3968 : S128x62x64.ShapeCasts S128x3968
  concatenates_S64x128_S1x128_S65x128_d0 : Shape.Concatenates [S64x128, S1x128] S65x128 0
  transposes_S65x128_p1_0_S128x65 : S65x128.Transposes [1, 0] S128x65
  concatenates_S1x3968_S1x65_S1x4033_d1 : Shape.Concatenates [S1x3968, S1x65] S1x4033 1
  reduces_S1x4033_S1 : S1x4033.Reduces [1] S1
  shapeCasts_S1_S1x1 : S1.ShapeCasts S1x1
  broadcasts_S1x1_S1x4033 : S1x1.Broadcasts S1x4033
  shapeCasts_S3968x128_S3968x2x64 : S3968x128.ShapeCasts S3968x2x64
  shapeCasts_S3968x2_S3968x2x1 : S3968x2.ShapeCasts S3968x2x1
  broadcasts_S3968x2x1_S3968x2x64 : S3968x2x1.Broadcasts S3968x2x64
  shapeCasts_S3968x2x64_S3968x128 : S3968x2x64.ShapeCasts S3968x128
  slices_S1x4033_o0_0_S1x3968 : S1x4033.Slices ![0, 0] S1x3968
  slices_S1x4033_o0_3968_S1x65 : S1x4033.Slices ![0, 3968] S1x65
  shapeCasts_S1x128_S1x1x1x128 : S1x128.ShapeCasts S1x1x1x128
  transposes_S4x32x1x128_S4x1x32x128_0_2_1_3 : S4x32x1x128.Transposes [0, 2, 1, 3] S4x1x32x128
  dot_S1x128_S128x3968_S1x3968_1_0_0_1_n_n_wf : DotDims.WF S1x128 S128x3968 S1x3968 [1] [0] [0] [1] [] []
  dot_S1x128_S128x65_S1x65_1_0_0_1_n_n_wf : DotDims.WF S1x128 S128x65 S1x65 [1] [0] [0] [1] [] []
  dot_S1x3968_S3968x128_S1x128_1_0_0_1_n_n_wf : DotDims.WF S1x3968 S3968x128 S1x128 [1] [0] [0] [1] [] []
  dot_S1x65_S65x128_S1x128_1_0_0_1_n_n_wf : DotDims.WF S1x65 S65x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1x128.size a ≤ S4x32x1x128.size a
  hwx0_0 : ∀ i : grid0.Coords, EltTy.bits .f32 = 32 ∨ (Rect.block (s := S4x32x1x128) S1x1x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x128.size a ≤ S4x32x1x128.size a
  hwx0_1 : ∀ i : grid0.Coords, EltTy.bits .f32 = 32 ∨ (Rect.block (s := S4x32x1x128) S1x1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x128.size a ≤ S4x32x1x128.size a
  hwx0_2 : ∀ i : grid0.Coords, EltTy.bits .f32 = 32 ∨ (Rect.block (s := S4x32x1x128) S1x1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x128.size a ≤ S4x32x64x128.size a
  hwx0_3 : ∀ i : grid0.Coords, EltTy.bits .f32 = 32 ∨ (Rect.block (s := S4x32x64x128) S1x1x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64x128.size a ≤ S4x32x64x128.size a
  hwx0_4 : ∀ i : grid0.Coords, EltTy.bits .f32 = 32 ∨ (Rect.block (s := S4x32x64x128) S1x1x64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128x62.size a ≤ S4x32x128x62.size a
  hwx0_5 : ∀ i : grid0.Coords, EltTy.bits .f32 = 32 ∨ (Rect.block (s := S4x32x128x62) S1x1x128x62.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128x62.size a ≤ S4x32x128x62.size a
  hwx0_6 : ∀ i : grid0.Coords, EltTy.bits .f32 = 32 ∨ (Rect.block (s := S4x32x128x62) S1x1x128x62.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x3968x2.size a ≤ S4x32x3968x2.size a
  hwx0_7 : ∀ i : grid0.Coords, EltTy.bits .f32 = 32 ∨ (Rect.block (s := S4x32x3968x2) S1x1x3968x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x3968x2.size a ≤ S4x32x3968x2.size a
  hwx0_8 : ∀ i : grid0.Coords, EltTy.bits .f32 = 32 ∨ (Rect.block (s := S4x32x3968x2) S1x1x3968x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128x3968.size a ≤ S4x32x128x3968.size a
  hwx0_9 : ∀ i : grid0.Coords, EltTy.bits .i32 = 32 ∨ (Rect.block (s := S4x32x128x3968) S1x1x128x3968.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x3968x128.size a ≤ S4x32x3968x128.size a
  hwx0_10 : ∀ i : grid0.Coords, EltTy.bits .i32 = 32 ∨ (Rect.block (s := S4x32x3968x128) S1x1x3968x128.size (cc0_transform_10 i) (hinb0_10 i)).WholeWords (EltTy.packing .i32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1x128.size a ≤ S4x32x1x128.size a
  hwx0_11 : ∀ i : grid0.Coords, EltTy.bits .f32 = 32 ∨ (Rect.block (s := S4x32x1x128) S1x1x1x128.size (cc0_transform_11 i) (hinb0_11 i)).WholeWords (EltTy.packing .f32)

variable [Facts₀]

def dot_S1x128_S128x3968_S1x3968_1_0_0_1_n_n : DotDims S1x128 S128x3968 S1x3968 where
  lhsContracting := [1]
  rhsContracting := [0]
  lhsNonContracting := [0]
  rhsNonContracting := [1]
  lhsBatch := []
  rhsBatch := []
  wf := dot_S1x128_S128x3968_S1x3968_1_0_0_1_n_n_wf
def dot_S1x128_S128x65_S1x65_1_0_0_1_n_n : DotDims S1x128 S128x65 S1x65 where
  lhsContracting := [1]
  rhsContracting := [0]
  lhsNonContracting := [0]
  rhsNonContracting := [1]
  lhsBatch := []
  rhsBatch := []
  wf := dot_S1x128_S128x65_S1x65_1_0_0_1_n_n_wf
def dot_S1x3968_S3968x128_S1x128_1_0_0_1_n_n : DotDims S1x3968 S3968x128 S1x128 where
  lhsContracting := [1]
  rhsContracting := [0]
  lhsNonContracting := [0]
  rhsNonContracting := [1]
  lhsBatch := []
  rhsBatch := []
  wf := dot_S1x3968_S3968x128_S1x128_1_0_0_1_n_n_wf
def dot_S1x65_S65x128_S1x128_1_0_0_1_n_n : DotDims S1x65 S65x128 S1x128 where
  lhsContracting := [1]
  rhsContracting := [0]
  lhsNonContracting := [0]
  rhsNonContracting := [1]
  lhsBatch := []
  rhsBatch := []
  wf := dot_S1x65_S65x128_S1x128_1_0_0_1_n_n_wf

abbrev win0_0 : Pipeline.Window sig grid0 :=
  Pipeline.Window.ofSpec (Memref.whole main_v0) S1x1x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x64x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x128x62.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x128x62.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1x3968x2.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1x3968x2.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x1x128x3968.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x1x3968x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x1x32x128 : Shape := ⟨4, ![4, 1, 32, 128]⟩
abbrev S4x32x64x128 : Shape := ⟨4, ![4, 32, 64, 128]⟩
abbrev S4x32x128x62 : Shape := ⟨4, ![4, 32, 128, 62]⟩
abbrev S4x32x3968x2 : Shape := ⟨4, ![4, 32, 3968, 2]⟩
abbrev S4x32x128x3968 : Shape := ⟨4, ![4, 32, 128, 3968]⟩
abbrev S4x32x3968x128 : Shape := ⟨4, ![4, 32, 3968, 128]⟩
abbrev S4x32x1x128 : Shape := ⟨4, ![4, 32, 1, 128]⟩
abbrev S4x32x128x62x64 : Shape := ⟨5, ![4, 32, 128, 62, 64]⟩
abbrev S4x32x128x62x1 : Shape := ⟨5, ![4, 32, 128, 62, 1]⟩
abbrev S4x32x1x3968 : Shape := ⟨4, ![4, 32, 1, 3968]⟩
abbrev S4x32x65x128 : Shape := ⟨4, ![4, 32, 65, 128]⟩
abbrev S4x32x1x65 : Shape := ⟨4, ![4, 32, 1, 65]⟩
abbrev S4x32x1x4033 : Shape := ⟨4, ![4, 32, 1, 4033]⟩
abbrev S_ : Shape := ⟨0, ![]⟩
abbrev S4x32x1 : Shape := ⟨3, ![4, 32, 1]⟩
abbrev S4x32x1x1 : Shape := ⟨4, ![4, 32, 1, 1]⟩
abbrev S4x32x3968x2x64 : Shape := ⟨5, ![4, 32, 3968, 2, 64]⟩
abbrev S4x32x3968x2x1 : Shape := ⟨5, ![4, 32, 3968, 2, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x1x32x128, .f32⟩
  | .hbm, ⟨1, _⟩ => ⟨S4x1x32x128, .f32⟩
  | .hbm, ⟨2, _⟩ => ⟨S4x1x32x128, .f32⟩
  | .hbm, ⟨3, _⟩ => ⟨S4x32x64x128, .f32⟩
  | .hbm, ⟨4, _⟩ => ⟨S4x32x64x128, .f32⟩
  | .hbm, ⟨5, _⟩ => ⟨S4x32x128x62, .f32⟩
  | .hbm, ⟨6, _⟩ => ⟨S4x32x128x62, .f32⟩
  | .hbm, ⟨7, _⟩ => ⟨S4x32x3968x2, .f32⟩
  | .hbm, ⟨8, _⟩ => ⟨S4x32x3968x2, .f32⟩
  | .hbm, ⟨9, _⟩ => ⟨S4x32x128x3968, .i32⟩
  | .hbm, ⟨10, _⟩ => ⟨S4x32x3968x128, .i32⟩
  | .hbm, ⟨11, _⟩ => ⟨S4x32x1x128, .f32⟩
  | .hbm, ⟨12, _⟩ => ⟨S4x32x1x128, .f32⟩
  | .hbm, ⟨13, _⟩ => ⟨S4x32x1x128, .f32⟩
  | .hbm, ⟨14, _⟩ => ⟨S4x32x128x3968, .f32⟩
  | .hbm, ⟨15, _⟩ => ⟨S4x32x128x62x64, .f32⟩
  | .hbm, ⟨16, _⟩ => ⟨S4x32x128x62x1, .f32⟩
  | .hbm, ⟨17, _⟩ => ⟨S4x32x128x62x64, .f32⟩
  | .hbm, ⟨18, _⟩ => ⟨S4x32x128x62x64, .f32⟩
  | .hbm, ⟨19, _⟩ => ⟨S4x32x128x62x1, .f32⟩
  | .hbm, ⟨20, _⟩ => ⟨S4x32x128x62x64, .f32⟩
  | .hbm, ⟨21, _⟩ => ⟨S4x32x128x62x64, .f32⟩
  | .hbm, ⟨22, _⟩ => ⟨S4x32x128x3968, .f32⟩
  | .hbm, ⟨23, _⟩ => ⟨S4x32x1x3968, .f32⟩
  | .hbm, ⟨24, _⟩ => ⟨S4x32x65x128, .f32⟩
  | .hbm, ⟨25, _⟩ => ⟨S4x32x1x65, .f32⟩
  | .hbm, ⟨26, _⟩ => ⟨S4x32x1x4033, .f32⟩
  | .hbm, ⟨27, _⟩ => ⟨S_, .f32⟩
  | .hbm, ⟨28, _⟩ => ⟨S4x32x1x4033, .f32⟩
  | .hbm, ⟨29, _⟩ => ⟨S4x32x1x4033, .f32⟩
  | .hbm, ⟨30, _⟩ => ⟨S_, .f32⟩
  | .hbm, ⟨31, _⟩ => ⟨S4x32x1, .f32⟩
  | .hbm, ⟨32, _⟩ => ⟨S_, .f32⟩
  | .hbm, ⟨33, _⟩ => ⟨S4x32x1, .f32⟩
  | .hbm, ⟨34, _⟩ => ⟨S4x32x1, .f32⟩
  | .hbm, ⟨35, _⟩ => ⟨S4x32x1x1, .f32⟩
  | .hbm, ⟨36, _⟩ => ⟨S4x32x1x4033, .f32⟩
  | .hbm, ⟨37, _⟩ => ⟨S4x32x1x4033, .f32⟩
  | .hbm, ⟨38, _⟩ => ⟨S4x32x1x4033, .f32⟩
  | .hbm, ⟨39, _⟩ => ⟨S_, .f32⟩
  | .hbm, ⟨40, _⟩ => ⟨S4x32x1, .f32⟩
  | .hbm, ⟨41, _⟩ => ⟨S4x32x1x1, .f32⟩
  | .hbm, ⟨42, _⟩ => ⟨S4x32x1x4033, .f32⟩
  | .hbm, ⟨43, _⟩ => ⟨S4x32x1x4033, .f32⟩
  | .hbm, ⟨44, _⟩ => ⟨S4x32x65x128, .f32⟩
  | .hbm, ⟨45, _⟩ => ⟨S4x32x3968x128, .f32⟩
  | .hbm, ⟨46, _⟩ => ⟨S4x32x3968x2x64, .f32⟩
  | .hbm, ⟨47, _⟩ => ⟨S4x32x3968x2x1, .f32⟩
  | .hbm, ⟨48, _⟩ => ⟨S4x32x3968x2x64, .f32⟩
  | .hbm, ⟨49, _⟩ => ⟨S4x32x3968x2x64, .f32⟩
  | .hbm, ⟨50, _⟩ => ⟨S4x32x3968x2x1, .f32⟩
  | .hbm, ⟨51, _⟩ => ⟨S4x32x3968x2x64, .f32⟩
  | .hbm, ⟨52, _⟩ => ⟨S4x32x3968x2x64, .f32⟩
  | .hbm, ⟨53, _⟩ => ⟨S4x32x3968x128, .f32⟩
  | .hbm, ⟨54, _⟩ => ⟨S4x32x1x3968, .f32⟩
  | .hbm, ⟨55, _⟩ => ⟨S4x32x1x128, .f32⟩
  | .hbm, ⟨56, _⟩ => ⟨S4x32x1x65, .f32⟩
  | .hbm, ⟨57, _⟩ => ⟨S4x32x1x128, .f32⟩
  | .hbm, ⟨58, _⟩ => ⟨S4x32x1x128, .f32⟩
  | .hbm, ⟨59, _⟩ => ⟨S4x1x32x128, .f32⟩
  | _, _ => ⟨S4x1x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  transposes_S4x1x32x128_S4x32x1x128_0_2_1_3 : S4x1x32x128.Transposes [0, 2, 1, 3] S4x32x1x128
  shapeCasts_S4x32x128x3968_S4x32x128x62x64 : S4x32x128x3968.ShapeCasts S4x32x128x62x64
  bcast_S4x32x128x62_S4x32x128x62x1_0_1_2_3 : S4x32x128x62.BroadcastsInDim S4x32x128x62x1 (![0, 1, 2, 3] : Fin 4 → Fin S4x32x128x62x1.rank)
  bcast_S4x32x128x62x1_S4x32x128x62x64_0_1_2_3_4 : S4x32x128x62x1.BroadcastsInDim S4x32x128x62x64 (![0, 1, 2, 3, 4] : Fin 5 → Fin S4x32x128x62x64.rank)
  shapeCasts_S4x32x128x62x64_S4x32x128x3968 : S4x32x128x62x64.ShapeCasts S4x32x128x3968
  concatenates_S4x32x64x128_S4x32x1x128_S4x32x65x128_d2 : Shape.Concatenates [S4x32x64x128, S4x32x1x128] S4x32x65x128 2
  concatenates_S4x32x1x3968_S4x32x1x65_S4x32x1x4033_d3 : Shape.Concatenates [S4x32x1x3968, S4x32x1x65] S4x32x1x4033 3
  bcast_S_S4x32x1x4033 : S_.BroadcastsInDim S4x32x1x4033 (![] : Fin 0 → Fin S4x32x1x4033.rank)
  reducesTo_S4x32x1x4033_S4x32x1_d3 : S4x32x1x4033.ReducesTo [3] S4x32x1
  h_S_ : 0 < S_.numel
  bcast_S_S4x32x1 : S_.BroadcastsInDim S4x32x1 (![] : Fin 0 → Fin S4x32x1.rank)
  bcast_S4x32x1_S4x32x1x1_0_1_2 : S4x32x1.BroadcastsInDim S4x32x1x1 (![0, 1, 2] : Fin 3 → Fin S4x32x1x1.rank)
  bcast_S4x32x1x1_S4x32x1x4033_0_1_2_3 : S4x32x1x1.BroadcastsInDim S4x32x1x4033 (![0, 1, 2, 3] : Fin 4 → Fin S4x32x1x4033.rank)
  shapeCasts_S4x32x3968x128_S4x32x3968x2x64 : S4x32x3968x128.ShapeCasts S4x32x3968x2x64
  bcast_S4x32x3968x2_S4x32x3968x2x1_0_1_2_3 : S4x32x3968x2.BroadcastsInDim S4x32x3968x2x1 (![0, 1, 2, 3] : Fin 4 → Fin S4x32x3968x2x1.rank)
  bcast_S4x32x3968x2x1_S4x32x3968x2x64_0_1_2_3_4 : S4x32x3968x2x1.BroadcastsInDim S4x32x3968x2x64 (![0, 1, 2, 3, 4] : Fin 5 → Fin S4x32x3968x2x64.rank)
  shapeCasts_S4x32x3968x2x64_S4x32x3968x128 : S4x32x3968x2x64.ShapeCasts S4x32x3968x128
  slices_S4x32x1x4033_S4x32x1x3968_0_0_0_0 : S4x32x1x4033.Slices ![0, 0, 0, 0] S4x32x1x3968
  slices_S4x32x1x4033_S4x32x1x65_0_0_0_3968 : S4x32x1x4033.Slices ![0, 0, 0, 3968] S4x32x1x65
  transposes_S4x32x1x128_S4x1x32x128_0_2_1_3 : S4x32x1x128.Transposes [0, 2, 1, 3] S4x1x32x128
  dot_S4x32x1x128_S4x32x128x3968_S4x32x1x3968_3_2_2_3_01_01_wf : DotDims.WF S4x32x1x128 S4x32x128x3968 S4x32x1x3968 [3] [2] [2] [3] [0, 1] [0, 1]
  dot_S4x32x1x128_S4x32x65x128_S4x32x1x65_3_3_2_2_01_01_wf : DotDims.WF S4x32x1x128 S4x32x65x128 S4x32x1x65 [3] [3] [2] [2] [0, 1] [0, 1]
  dot_S4x32x1x3968_S4x32x3968x128_S4x32x1x128_3_2_2_3_01_01_wf : DotDims.WF S4x32x1x3968 S4x32x3968x128 S4x32x1x128 [3] [2] [2] [3] [0, 1] [0, 1]
  dot_S4x32x1x65_S4x32x65x128_S4x32x1x128_3_2_2_3_01_01_wf : DotDims.WF S4x32x1x65 S4x32x65x128 S4x32x1x128 [3] [2] [2] [3] [0, 1] [0, 1]

variable [Facts₀]

def dot_S4x32x1x128_S4x32x128x3968_S4x32x1x3968_3_2_2_3_01_01 : DotDims S4x32x1x128 S4x32x128x3968 S4x32x1x3968 where
  lhsContracting := [3]
  rhsContracting := [2]
  lhsNonContracting := [2]
  rhsNonContracting := [3]
  lhsBatch := [0, 1]
  rhsBatch := [0, 1]
  wf := dot_S4x32x1x128_S4x32x128x3968_S4x32x1x3968_3_2_2_3_01_01_wf
def dot_S4x32x1x128_S4x32x65x128_S4x32x1x65_3_3_2_2_01_01 : DotDims S4x32x1x128 S4x32x65x128 S4x32x1x65 where
  lhsContracting := [3]
  rhsContracting := [3]
  lhsNonContracting := [2]
  rhsNonContracting := [2]
  lhsBatch := [0, 1]
  rhsBatch := [0, 1]
  wf := dot_S4x32x1x128_S4x32x65x128_S4x32x1x65_3_3_2_2_01_01_wf
def dot_S4x32x1x3968_S4x32x3968x128_S4x32x1x128_3_2_2_3_01_01 : DotDims S4x32x1x3968 S4x32x3968x128 S4x32x1x128 where
  lhsContracting := [3]
  rhsContracting := [2]
  lhsNonContracting := [2]
  rhsNonContracting := [3]
  lhsBatch := [0, 1]
  rhsBatch := [0, 1]
  wf := dot_S4x32x1x3968_S4x32x3968x128_S4x32x1x128_3_2_2_3_01_01_wf
def dot_S4x32x1x65_S4x32x65x128_S4x32x1x128_3_2_2_3_01_01 : DotDims S4x32x1x65 S4x32x65x128 S4x32x1x128 where
  lhsContracting := [3]
  rhsContracting := [2]
  lhsNonContracting := [2]
  rhsNonContracting := [3]
  lhsBatch := [0, 1]
  rhsBatch := [0, 1]
  wf := dot_S4x32x1x65_S4x32x65x128_S4x32x1x128_3_2_2_3_01_01_wf

class Facts : Prop extends Facts₀ where

variable [Facts]
-- ==== Proof.KernelParts.lean ====
/-
  The kernel body's arithmetic, cut into five pieces that are each small enough to read at an index on their own:
  the dequantised key cache, the scaled logits, the softmax of a row of logits, the dequantised value cache, and the
  output row from the weights.  Composed, the pieces are the body's one pure term (`pay11_cut`, by unfolding).
-/
import proofs.«180641_j77506979824107_1_alg».proof.Proof.Gen.KernelIdeal.Skeleton

noncomputable section

namespace Cert.KernelIdeal.Parts

open Cert.KernelIdeal Cert.KernelIdeal.Gen Idealize.ShloMosaic Idealize.SL.Sem

variable {F : FTy → Type} [FloatOps F]

/-- The key cache dequantised: codes to floats, regrouped `[128, 62, 64]`, times the group's scale, plus the group's
    offset, and back to `[128, 3968]`. -/
def keyCache (v11 v13 : FVec F S128x62 .f32) (v18 : Vec F S1x1x128x3968 .i32) : FVec F S128x3968 .f32 :=
  have v19 : IVec S128x3968 32 := shapeCast S128x3968 v18 shapeCasts_S1x1x128x3968_S128x3968
  have v22 : FVec F S128x3968 .f32 := sitofp .f32 v19
  have v23 : FVec F S128x62x64 .f32 := shapeCast S128x62x64 v22 shapeCasts_S128x3968_S128x62x64
  have v24 : FVec F S128x62x1 .f32 := shapeCast S128x62x1 v11 shapeCasts_S128x62_S128x62x1
  have v25 : FVec F S128x62x64 .f32 := broadcastTo S128x62x64 v24 broadcasts_S128x62x1_S128x62x64
  have v26 : FVec F S128x62x64 .f32 := mulf v23 v25
  have v27 : FVec F S128x62x1 .f32 := shapeCast S128x62x1 v13 shapeCasts_S128x62_S128x62x1
  have v28 : FVec F S128x62x64 .f32 := broadcastTo S128x62x64 v27 broadcasts_S128x62x1_S128x62x64
  have v29 : FVec F S128x62x64 .f32 := addf v26 v28
  have v30 : FVec F S128x3968 .f32 := shapeCast S128x3968 v29 shapeCasts_S128x62x64_S128x3968
  v30

/-- The scaled logits: the query against the dequantised keys, the query against the 64 kept keys and the new key,
    laid end to end, times the scale. -/
def logits (v1 v3 : FVec F S1x128 .f32) (v7 : FVec F S64x128 .f32) (v30 : FVec F S128x3968 .f32) : FVec F S1x4033 .f32 :=
  have cst : FVec F S1x3968 .f32 := constant S1x3968 .f32 0x00000000#32
  have v31 : FVec F S1x3968 .f32 := matmul dot_S1x128_S128x3968_S1x3968_1_0_0_1_n_n none v1 v30 cst
  have v32 : FVec F S65x128 .f32 := concatenate S65x128 0 [⟨S64x128, v7⟩, ⟨S1x128, v3⟩] concatenates_S64x128_S1x128_S65x128_d0
  have v33 : FVec F S128x65 .f32 := transpose S128x65 [1, 0] v32 transposes_S65x128_p1_0_S128x65
  have cst_43 : FVec F S1x65 .f32 := constant S1x65 .f32 0x00000000#32
  have v34 : FVec F S1x65 .f32 := matmul dot_S1x128_S128x65_S1x65_1_0_0_1_n_n none v1 v33 cst_43
  have v35 : FVec F S1x4033 .f32 := concatenate S1x4033 1 [⟨S1x3968, v31⟩, ⟨S1x65, v34⟩] concatenates_S1x3968_S1x65_S1x4033_d1
  have cst_44 : F .f32 := Scalar.ofBits .f32 0x3DB504F3#32
  have v36 : FVec F S1x4033 .f32 := broadcast S1x4033 cst_44
  have v37 : FVec F S1x4033 .f32 := mulf v35 v36
  v37

/-- The softmax of a row: subtract the row's largest entry, exponentiate, divide by the sum. -/
def softmaxRow (v37 : FVec F S1x4033 .f32) : FVec F S1x4033 .f32 :=
  have v38 : FVec F S1 .f32 := multiReduction .maximumf [1] S1 v37 0xFF800000#32 reduces_S1x4033_S1 (.inl rfl) rfl
  have cst_46 : F .f32 := Scalar.ofBits .f32 0xFF800000#32
  have v39 : FVec F S1 .f32 := broadcast S1 cst_46
  have v40 : FVec F S1 .f32 := maximumf v39 v38
  have v41 : FVec F S1x1 .f32 := shapeCast S1x1 v40 shapeCasts_S1_S1x1
  have v42 : FVec F S1x4033 .f32 := broadcastTo S1x4033 v41 broadcasts_S1x1_S1x4033
  have v43 : FVec F S1x4033 .f32 := subf v37 v42
  have v44 : FVec F S1x4033 .f32 := exp v43
  have v45 : FVec F S1 .f32 := multiReduction .add [1] S1 v44 0x00000000#32 reduces_S1x4033_S1 (.inl rfl) rfl
  have v46 : FVec F S1x1 .f32 := shapeCast S1x1 v45 shapeCasts_S1_S1x1
  have v47 : FVec F S1x4033 .f32 := broadcastTo S1x4033 v46 broadcasts_S1x1_S1x4033
  have v48 : FVec F S1x4033 .f32 := divf v44 v47
  v48

/-- The value cache dequantised, as the key cache but grouped along the features. -/
def valueCache (v15 v17 : FVec F S3968x2 .f32) (v20 : Vec F S1x1x3968x128 .i32) : FVec F S3968x128 .f32 :=
  have v21 : IVec S3968x128 32 := shapeCast S3968x128 v20 shapeCasts_S1x1x3968x128_S3968x128
  have v49 : FVec F S3968x128 .f32 := sitofp .f32 v21
  have v50 : FVec F S3968x2x64 .f32 := shapeCast S3968x2x64 v49 shapeCasts_S3968x128_S3968x2x64
  have v51 : FVec F S3968x2x1 .f32 := shapeCast S3968x2x1 v15 shapeCasts_S3968x2_S3968x2x1
  have v52 : FVec F S3968x2x64 .f32 := broadcastTo S3968x2x64 v51 broadcasts_S3968x2x1_S3968x2x64
  have v53 : FVec F S3968x2x64 .f32 := mulf v50 v52
  have v54 : FVec F S3968x2x1 .f32 := shapeCast S3968x2x1 v17 shapeCasts_S3968x2_S3968x2x1
  have v55 : FVec F S3968x2x64 .f32 := broadcastTo S3968x2x64 v54 broadcasts_S3968x2x1_S3968x2x64
  have v56 : FVec F S3968x2x64 .f32 := addf v53 v55
  have v57 : FVec F S3968x128 .f32 := shapeCast S3968x128 v56 shapeCasts_S3968x2x64_S3968x128
  v57

/-- The output row: the first 3968 weights against the dequantised values plus the last 65 against the kept values
    and the new value. -/
def outRow (v48 : FVec F S1x4033 .f32) (v57 : FVec F S3968x128 .f32) (v9 : FVec F S64x128 .f32) (v5 : FVec F S1x128 .f32) :
    FVec F S1x128 .f32 :=
  have v58 : FVec F S1x3968 .f32 := extractStridedSlice S1x3968 ![0, 0] v48 slices_S1x4033_o0_0_S1x3968
  have v59 : FVec F S1x65 .f32 := extractStridedSlice S1x65 ![0, 3968] v48 slices_S1x4033_o0_3968_S1x65
  have cst_48 : FVec F S1x128 .f32 := constant S1x128 .f32 0x00000000#32
  have v60 : FVec F S1x128 .f32 := matmul dot_S1x3968_S3968x128_S1x128_1_0_0_1_n_n none v58 v57 cst_48
  have v61 : FVec F S65x128 .f32 := concatenate S65x128 0 [⟨S64x128, v9⟩, ⟨S1x128, v5⟩] concatenates_S64x128_S1x128_S65x128_d0
  have cst_49 : FVec F S1x128 .f32 := constant S1x128 .f32 0x00000000#32
  have v62 : FVec F S1x128 .f32 := matmul dot_S1x65_S65x128_S1x128_1_0_0_1_n_n none v59 v61 cst_49
  have v63 : FVec F S1x128 .f32 := addf v60 v62
  v63

/-- The body's value is the five pieces composed. -/
theorem pay11_cut (v1 v3 v5 : FVec F S1x128 .f32) (v7 v9 : FVec F S64x128 .f32) (v11 v13 : FVec F S128x62 .f32)
    (v15 v17 : FVec F S3968x2 .f32) (v18 : Vec F S1x1x128x3968 .i32) (v20 : Vec F S1x1x3968x128 .i32) :
    k0_pay11 v1 v3 v5 v7 v9 v11 v13 v15 v17 v18 v20
      = outRow (softmaxRow (logits v1 v3 v7 (keyCache v11 v13 v18))) (valueCache v15 v17 v20) v9 v5 := rfl

end Cert.KernelIdeal.Parts

end
-- ==== Proof.AttnSpec.lean ====
/-
  Single-query attention over a quantised key/value cache, one head at a time.

  For one (batch, head) pair the inputs are: the query row `q`, the new key and value rows, 64 full-precision key
  and value rows, and a quantised cache of 3968 positions — the keys stored transposed (`[128, 3968]` integer codes,
  one scale and one offset per feature and per group of 64 positions), the values stored `[3968, 128]` (one scale and
  one offset per position and per group of 64 features).  A code `c` of a group with scale `s` and offset `m` stands
  for `c · s + m`.

  The head's output: the 3968 scores of `q` against the dequantised keys and the 65 scores against the full-precision
  keys (the new key last) are laid end to end and scaled; a softmax over those 4033 numbers (subtract the largest,
  exponentiate, divide by the sum) gives the weights; the output row is the weighted sum of the dequantised values
  plus the weighted sum of the 65 full-precision values.  Everything here is over the extended reals, so sums may be
  taken in any order and regrouped by position freely; no distributive law is used anywhere.
-/
import Idealize.ShloMosaic.Lib.ValueIdx
import Idealize.ShloMosaic.PureOps.Ideal.Laws

noncomputable section

open scoped BigOperators

namespace QuantAttn

open Idealize.ShloMosaic Idealize.ShloMosaic.ValueIdx

/-- The group of 64 cache positions that position `t` lies in. -/
def grpT (t : Fin 3968) : Fin 62 := ⟨t.val / 64, by have := t.isLt; omega⟩

/-- The group of 64 features that feature `d` lies in. -/
def grpD (d : Fin 128) : Fin 2 := ⟨d.val / 64, by have := d.isLt; omega⟩

/-- One dequantised entry: the integer code as a number, times its group's scale, plus its group's offset. -/
def deq (code : BitVec 32) (scale mn : EReal) : EReal := FloatOps.sitofp (F := Ideal) .f32 code * scale + mn

/-- Position `n` of two rows laid end to end, the first of length 3968, the second of length 65. -/
def cat (x : Fin 3968 → EReal) (y : Fin 65 → EReal) (n : Fin 4033) : EReal :=
  if h : n.val < 3968 then x ⟨n.val, h⟩ else y ⟨n.val - 3968, by have := n.isLt; omega⟩

/-- Row `j` of 64 rows followed by one more row. -/
def withLast (x : Fin 64 → Fin 128 → EReal) (y : Fin 128 → EReal) (j : Fin 65) (d : Fin 128) : EReal :=
  if h : j.val < 64 then x ⟨j.val, h⟩ d else y d

/-! ## The three steps, on plain rows -/

/-- The 4033 scaled logits of a query `q` against 3968 cache keys (stored transposed) and 65 further keys; the scale
    is the f32 word both programs carry (the one nearest `1/√128`). -/
def scores (q : Fin 128 → EReal) (kd : Fin 128 → Fin 3968 → EReal) (kf : Fin 65 → Fin 128 → EReal) (n : Fin 4033) : EReal :=
  cat (fun t => ∑ d : Fin 128, q d * kd d t) (fun j => ∑ d : Fin 128, q d * kf j d) n * Ideal.ofBits .f32 0x3DB504F3#32

/-- The largest entry of a row, taken from `-∞` (and once more against `-∞`, as both programs do). -/
def rowTop (l : Fin 4033 → EReal) : EReal :=
  max (Ideal.ofBits .f32 0xFF800000#32) ((Finset.univ : Finset (Fin 4033)).fold max (Ideal.ofBits .f32 0xFF800000#32) l)

/-- The shifted exponentials of a row. -/
def rowEx (l : Fin 4033 → EReal) (n : Fin 4033) : EReal := Ideal.exp (l n - rowTop l)

/-- The softmax of a row: each shifted exponential over their sum. -/
def softmax (l : Fin 4033 → EReal) (n : Fin 4033) : EReal := Ideal.div (rowEx l n) (∑ k : Fin 4033, rowEx l k)

/-- The weights against the values: the first 3968 against the cache's, the last 65 against the further ones. -/
def attend (p : Fin 4033 → EReal) (vd : Fin 3968 → Fin 128 → EReal) (vf : Fin 65 → Fin 128 → EReal) (d : Fin 128) : EReal :=
  (∑ t : Fin 3968, p ⟨t.val, by have := t.isLt; omega⟩ * vd t d)
    + ∑ j : Fin 65, p ⟨3968 + j.val, by have := j.isLt; omega⟩ * vf j d

/-- The inputs of one head. -/
structure Head where
  q : Fin 128 → EReal
  kn : Fin 128 → EReal
  vn : Fin 128 → EReal
  kfull : Fin 64 → Fin 128 → EReal
  vfull : Fin 64 → Fin 128 → EReal
  kscale : Fin 128 → Fin 62 → EReal
  kmn : Fin 128 → Fin 62 → EReal
  vscale : Fin 3968 → Fin 2 → EReal
  vmn : Fin 3968 → Fin 2 → EReal
  kq : Fin 128 → Fin 3968 → BitVec 32
  vq : Fin 3968 → Fin 128 → BitVec 32

namespace Head

variable (H : Head)

/-- The dequantised key cache, transposed: feature `d` of position `t`. -/
def kdeq (d : Fin 128) (t : Fin 3968) : EReal := deq (H.kq d t) (H.kscale d (grpT t)) (H.kmn d (grpT t))

/-- The dequantised value cache: feature `d` of position `t`. -/
def vdeq (t : Fin 3968) (d : Fin 128) : EReal := deq (H.vq t d) (H.vscale t (grpD d)) (H.vmn t (grpD d))

/-- Feature `d` of the head's output: the softmax of the scores, against the values. -/
def out : Fin 128 → EReal :=
  attend (softmax (scores H.q H.kdeq (withLast H.kfull H.kn))) H.vdeq (withLast H.vfull H.vn)

end Head

/-! ## The whole result, from the eleven argument arrays -/

abbrev SQ : Shape := ⟨4, ![4, 1, 32, 128]⟩
abbrev SFull : Shape := ⟨4, ![4, 32, 64, 128]⟩
abbrev SKs : Shape := ⟨4, ![4, 32, 128, 62]⟩
abbrev SVs : Shape := ⟨4, ![4, 32, 3968, 2]⟩
abbrev SKq : Shape := ⟨4, ![4, 32, 128, 3968]⟩
abbrev SVq : Shape := ⟨4, ![4, 32, 3968, 128]⟩

/-- Head `(b, h)` of the argument arrays (the query, new key and new value are stored `[batch, 1, head, feature]`). -/
def headOf (q k v : SQ.Idx → EReal) (kfull vfull : SFull.Idx → EReal) (kscale kmn : SKs.Idx → EReal)
    (vscale vmn : SVs.Idx → EReal) (kq : SKq.Idx → BitVec 32) (vq : SVq.Idx → BitVec 32) (b : Fin 4) (h : Fin 32) : Head where
  q d := q (ix4 b (0 : Fin 1) h d)
  kn d := k (ix4 b (0 : Fin 1) h d)
  vn d := v (ix4 b (0 : Fin 1) h d)
  kfull j d := kfull (ix4 b h j d)
  vfull j d := vfull (ix4 b h j d)
  kscale d g := kscale (ix4 b h d g)
  kmn d g := kmn (ix4 b h d g)
  vscale t g := vscale (ix4 b h t g)
  vmn t g := vmn (ix4 b h t g)
  kq d t := kq (ix4 b h d t)
  vq t d := vq (ix4 b h t d)

/-- The result array `[batch, 1, head, feature]`: each head's output row. -/
def result (q k v : SQ.Idx → EReal) (kfull vfull : SFull.Idx → EReal) (kscale kmn : SKs.Idx → EReal)
    (vscale vmn : SVs.Idx → EReal) (kq : SKq.Idx → BitVec 32) (vq : SVq.Idx → BitVec 32) : SQ.Idx → EReal :=
  fun i => (headOf q k v kfull vfull kscale kmn vscale vmn kq vq (i 0) (i 2)).out (i 3)

end QuantAttn

end
-- ==== Proof.KernelDequant.lean ====
/-
  The two dequantised caches of the kernel body, read one entry at a time.

  The key cache is stored transposed, `[128, 3968]` integer codes, with one scale and one offset per feature and per
  group of 64 consecutive positions.  The body turns the codes into numbers, regroups the positions as `[128, 62, 64]`
  (position `t` is entry `t % 64` of group `t / 64`), multiplies by the group's scale and adds the group's offset
  (each stored `[128, 62]`, given a unit last axis and repeated 64 times along it), and flattens back to `[128, 3968]`.
  Since a regrouping keeps the row-major position, entry `(d, t)` of the result is the code at `(d, t)` as a number,
  times the scale of `(d, t / 64)`, plus the offset of `(d, t / 64)`.

  The value cache is stored `[3968, 128]` with the groups of 64 along the features, `[3968, 2, 64]`; entry `(t, d)` of
  the result is the code at `(t, d)` as a number, times the scale of `(t, d / 64)`, plus the offset of `(t, d / 64)`.
-/
import proofs.«180641_j77506979824107_1_alg».proof.Proof.AttnSpec
import proofs.«180641_j77506979824107_1_alg».proof.Proof.KernelParts
import Idealize.ShloMosaic.Lib.ValueIdx
import Idealize.ShloMosaic.Lib.ValueLayout
import Idealize.ShloMosaic.Lib.Pipeline.Value

noncomputable section

open scoped BigOperators

open Idealize.ShloMosaic Idealize.ShloMosaic.ValueIdx QuantAttn

namespace Cert.KernelIdeal.DequantAt

open Cert.KernelIdeal Cert.KernelIdeal.Gen Cert.KernelIdeal.Parts

/-- The place of position `t` inside its group of 64 positions. -/
def remT (t : Fin 3968) : Fin 64 := ⟨t.val % 64, Nat.mod_lt _ (by norm_num)⟩

/-- The place of feature `d` inside its group of 64 features. -/
def remD (d : Fin 128) : Fin 64 := ⟨d.val % 64, Nat.mod_lt _ (by norm_num)⟩

section Layout
variable {α : Type}

/-! ### The key cache's layout steps, `[128, 3968]` against `[128, 62, 64]` -/

/-- Dropping the two leading unit axes: `(d, t)` reads `(0, 0, d, t)`. -/
theorem dropUnitsK_apply (x : S1x1x128x3968.Idx → α) (h : S1x1x128x3968.ShapeCasts S128x3968) (d : Fin 128) (t : Fin 3968) :
    shapeCast S128x3968 x h (ix2 d t) = x (ix4 (0 : Fin 1) (0 : Fin 1) d t) :=
  shapeCast_apply x h _ _ (by
    rw [Shape.rowMajor_val_four, Shape.rowMajor_val_two]
    show ((0 * 1 + 0) * 128 + d.val) * 3968 + t.val = d.val * 3968 + t.val
    omega)

/-- Regrouping the positions: entry `t % 64` of group `t / 64` in row `d` reads `(d, t)`. -/
theorem groupK_apply (x : S128x3968.Idx → α) (h : S128x3968.ShapeCasts S128x62x64) (d : Fin 128) (t : Fin 3968) :
    shapeCast S128x62x64 x h (ix3 d (grpT t) (remT t)) = x (ix2 d t) :=
  shapeCast_apply x h _ _ (by
    rw [Shape.rowMajor_val_three, Shape.rowMajor_val_two]
    show d.val * 3968 + t.val = (d.val * 62 + t.val / 64) * 64 + t.val % 64
    omega)

/-- Flattening the groups again: `(d, t)` reads entry `t % 64` of group `t / 64` in row `d`. -/
theorem flattenK_apply (x : S128x62x64.Idx → α) (h : S128x62x64.ShapeCasts S128x3968) (d : Fin 128) (t : Fin 3968) :
    shapeCast S128x3968 x h (ix2 d t) = x (ix3 d (grpT t) (remT t)) :=
  shapeCast_apply x h _ _ (by
    rw [Shape.rowMajor_val_three, Shape.rowMajor_val_two]
    show (d.val * 62 + t.val / 64) * 64 + t.val % 64 = d.val * 3968 + t.val
    omega)

/-- One number per feature and group, given a unit last axis and repeated along it: `(d, g, r)` reads `(d, g)`. -/
theorem perGroupK_apply (x : S128x62.Idx → α) (h1 : S128x62.ShapeCasts S128x62x1) (h2 : S128x62x1.Broadcasts S128x62x64)
    (d : Fin 128) (g : Fin 62) (r : Fin 64) :
    broadcastTo S128x62x64 (shapeCast S128x62x1 x h1) h2 (ix3 d g r) = x (ix2 d g) := by
  refine (broadcastTo_apply _ h2 (ix3 d g r) (ix3 d g (0 : Fin 1)) fun a => ?_).trans ?_
  · match a with
    | ⟨0, _⟩ => rfl
    | ⟨1, _⟩ => rfl
    | ⟨2, _⟩ => rfl
  · exact shapeCast_apply x h1 _ _ (by
      rw [Shape.rowMajor_val_three, Shape.rowMajor_val_two]
      show d.val * 62 + g.val = (d.val * 62 + g.val) * 1 + 0
      omega)

end Layout

section LayoutV
variable {α : Type}

/-! ### The value cache's layout steps, `[3968, 128]` against `[3968, 2, 64]` -/

/-- Dropping the two leading unit axes: `(t, d)` reads `(0, 0, t, d)`. -/
theorem dropUnitsV_apply (x : S1x1x3968x128.Idx → α) (h : S1x1x3968x128.ShapeCasts S3968x128) (t : Fin 3968) (d : Fin 128) :
    shapeCast S3968x128 x h (ix2 t d) = x (ix4 (0 : Fin 1) (0 : Fin 1) t d) :=
  shapeCast_apply x h _ _ (by
    rw [Shape.rowMajor_val_four, Shape.rowMajor_val_two]
    show ((0 * 1 + 0) * 3968 + t.val) * 128 + d.val = t.val * 128 + d.val
    omega)

/-- Regrouping the features: entry `d % 64` of group `d / 64` in row `t` reads `(t, d)`. -/
theorem groupV_apply (x : S3968x128.Idx → α) (h : S3968x128.ShapeCasts S3968x2x64) (t : Fin 3968) (d : Fin 128) :
    shapeCast S3968x2x64 x h (ix3 t (grpD d) (remD d)) = x (ix2 t d) :=
  shapeCast_apply x h _ _ (by
    rw [Shape.rowMajor_val_three, Shape.rowMajor_val_two]
    show t.val * 128 + d.val = (t.val * 2 + d.val / 64) * 64 + d.val % 64
    omega)

/-- Flattening the groups again: `(t, d)` reads entry `d % 64` of group `d / 64` in row `t`. -/
theorem flattenV_apply (x : S3968x2x64.Idx → α) (h : S3968x2x64.ShapeCasts S3968x128) (t : Fin 3968) (d : Fin 128) :
    shapeCast S3968x128 x h (ix2 t d) = x (ix3 t (grpD d) (remD d)) :=
  shapeCast_apply x h _ _ (by
    rw [Shape.rowMajor_val_three, Shape.rowMajor_val_two]
    show (t.val * 2 + d.val / 64) * 64 + d.val % 64 = t.val * 128 + d.val
    omega)

/-- One number per position and group, given a unit last axis and repeated along it: `(t, g, r)` reads `(t, g)`. -/
theorem perGroupV_apply (x : S3968x2.Idx → α) (h1 : S3968x2.ShapeCasts S3968x2x1) (h2 : S3968x2x1.Broadcasts S3968x2x64)
    (t : Fin 3968) (g : Fin 2) (r : Fin 64) :
    broadcastTo S3968x2x64 (shapeCast S3968x2x1 x h1) h2 (ix3 t g r) = x (ix2 t g) := by
  refine (broadcastTo_apply _ h2 (ix3 t g r) (ix3 t g (0 : Fin 1)) fun a => ?_).trans ?_
  · match a with
    | ⟨0, _⟩ => rfl
    | ⟨1, _⟩ => rfl
    | ⟨2, _⟩ => rfl
  · exact shapeCast_apply x h1 _ _ (by
      rw [Shape.rowMajor_val_three, Shape.rowMajor_val_two]
      show t.val * 2 + g.val = (t.val * 2 + g.val) * 1 + 0
      omega)

end LayoutV

/-- Entry `(d, t)` of the dequantised key cache: the code at `(d, t)` as a number, times the scale of feature `d` and
    the group of position `t`, plus that group's offset. -/
theorem keyCache_apply (v11 v13 : FVec Ideal S128x62 .f32) (v18 : Vec Ideal S1x1x128x3968 .i32) (d : Fin 128) (t : Fin 3968) :
    keyCache (F := Ideal) v11 v13 v18 (ix2 d t)
      = deq (v18 (ix4 (0 : Fin 1) (0 : Fin 1) d t)) (v11 (ix2 d (grpT t))) (v13 (ix2 d (grpT t))) := by
  unfold keyCache deq
  refine (flattenK_apply _ _ d t).trans ?_
  rw [addf_apply, mulf_apply, perGroupK_apply, perGroupK_apply, groupK_apply, sitofp_apply, dropUnitsK_apply]

/-- Entry `(t, d)` of the dequantised value cache: the code at `(t, d)` as a number, times the scale of position `t` and
    the group of feature `d`, plus that group's offset. -/
theorem valueCache_apply (v15 v17 : FVec Ideal S3968x2 .f32) (v20 : Vec Ideal S1x1x3968x128 .i32) (t : Fin 3968) (d : Fin 128) :
    valueCache (F := Ideal) v15 v17 v20 (ix2 t d)
      = deq (v20 (ix4 (0 : Fin 1) (0 : Fin 1) t d)) (v15 (ix2 t (grpD d))) (v17 (ix2 t (grpD d))) := by
  unfold valueCache deq
  refine (flattenV_apply _ _ t d).trans ?_
  rw [addf_apply, mulf_apply, perGroupV_apply, perGroupV_apply, groupV_apply, sitofp_apply, dropUnitsV_apply]

end Cert.KernelIdeal.DequantAt

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.KernelLogits.lean ====
/-
  The scaled logits of one attention head, read one entry at a time.

  The row of 4033 logits is built from two matrix products of the query row — one against the dequantised key cache
  (stored transposed, `[128, 3968]`), one against the transpose of the 64 kept keys with the new key appended as a
  65th row — joined end to end and multiplied by one constant.  Entry `n` of that row is therefore entry `n` of the
  two rows of inner products laid end to end, times the constant: the specification's `scores`.
-/
import proofs.«180641_j77506979824107_1_alg».proof.Proof.AttnSpec
import proofs.«180641_j77506979824107_1_alg».proof.Proof.KernelParts
import proofs.«180641_j77506979824107_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

open Idealize.ShloMosaic Idealize.ShloMosaic.ValueIdx QuantAttn

namespace Cert.KernelIdeal.LogitsAt

open Cert.KernelIdeal Cert.KernelIdeal.Gen Cert.KernelIdeal.Parts

/-- Two rows of lengths 3968 and 65 laid end to end: the general joining of two rows, at total length 4033, is the
    specification's. -/
theorem cat2_eq_cat (x : Fin 3968 → EReal) (y : Fin 65 → EReal) (n : Fin 4033) :
    RowOps.cat2 4033 x y n = cat x y n := by
  unfold RowOps.cat2 cat
  have hn := n.isLt
  by_cases h : n.val < 3968
  · rw [dif_pos h, dif_pos h]
  · have h2 : n.val - 3968 < 65 := by omega
    rw [dif_neg h, dif_neg h, dif_pos h2]

/-- The record of the product against the key cache is the plain one: contract the left's columns with the right's rows. -/
theorem dot_cache_plain : dot_S1x128_S128x3968_S1x3968_1_0_0_1_n_n = DotDims.plain 1 128 3968 := rfl

/-- The record of the product against the 65 further keys is the plain one. -/
theorem dot_kept_plain : dot_S1x128_S128x65_S1x65_1_0_0_1_n_n = DotDims.plain 1 128 65 := rfl

/-- The 64 kept keys with the new key joined below them, at row `j` and feature `d`. -/
theorem keys_apply (v7 : FVec Ideal S64x128 .f32) (v3 : FVec Ideal S1x128 .f32) (j : Fin 65) (d : Fin 128) :
    concatenate S65x128 0 [⟨S64x128, v7⟩, ⟨S1x128, v3⟩] concatenates_S64x128_S1x128_S65x128_d0 (ix2 j d)
      = withLast (fun j d => v7 (ix2 j d)) (fun d => v3 (ix2 (0 : Fin 1) d)) j d := by
  unfold withLast
  have hj := j.isLt
  by_cases h : j.val < 64
  · rw [dif_pos h]
    exact concatenate_apply_piece (0 : Fin S65x128.rank) [⟨S64x128, v7⟩, ⟨S1x128, v3⟩] concatenates_S64x128_S1x128_S65x128_d0
      (ix2 j d) 0 (by simp) S64x128 v7 rfl rfl 0 rfl (ix2 ⟨j.val, h⟩ d) (fun b hb => by
        match b with
        | ⟨0, _⟩ => exact absurd (Fin.ext rfl) hb
        | ⟨1, _⟩ => rfl) (Nat.zero_add _)
  · rw [dif_neg h]
    exact concatenate_apply_piece (0 : Fin S65x128.rank) [⟨S64x128, v7⟩, ⟨S1x128, v3⟩] concatenates_S64x128_S1x128_S65x128_d0
      (ix2 j d) 1 (by simp) S1x128 v3 rfl rfl 64 (by simp) (ix2 (0 : Fin 1) d) (fun b hb => by
        match b with
        | ⟨0, _⟩ => exact absurd (Fin.ext rfl) hb
        | ⟨1, _⟩ => rfl) (by show 64 + 0 = j.val; omega)

/-- The transpose of the 65 keys, at feature `d` and row `j`, is the keys at row `j` and feature `d`. -/
theorem keysT_apply (x : FVec Ideal S65x128 .f32) (d : Fin 128) (j : Fin 65) :
    transpose S128x65 [1, 0] x transposes_S65x128_p1_0_S128x65 (ix2 d j) = x (ix2 j d) :=
  transpose_apply [1, 0] x transposes_S65x128_p1_0_S128x65 (ix2 d j) (ix2 j d) (fun b => by
    match b with
    | ⟨0, _⟩ => rfl
    | ⟨1, _⟩ => rfl)

/-- Entry `n` of the kernel's row of logits is entry `n` of the specification's scores: the inner products of the
    query with the 3968 dequantised keys, then with the 64 kept keys and the new key, times the scale. -/
theorem logits_apply (v1 v3 : FVec Ideal S1x128 .f32) (v7 : FVec Ideal S64x128 .f32) (v30 : FVec Ideal S128x3968 .f32) (n : Fin 4033) :
    logits (F := Ideal) v1 v3 v7 v30 (ix2 (0 : Fin 1) n)
      = scores (fun d => v1 (ix2 (0 : Fin 1) d)) (fun d t => v30 (ix2 d t))
          (withLast (fun j d => v7 (ix2 j d)) (fun d => v3 (ix2 (0 : Fin 1) d))) n := by
  unfold logits scores
  show (concatenate S1x4033 1 [⟨S1x3968, _⟩, ⟨S1x65, _⟩] concatenates_S1x3968_S1x65_S1x4033_d1 (ix2 (0 : Fin 1) n))
      * Ideal.ofBits .f32 0x3DB504F3#32 = _
  refine congrArg (· * Ideal.ofBits .f32 0x3DB504F3#32) ?_
  refine (RowOps.cat2_apply _ _ concatenates_S1x3968_S1x65_S1x4033_d1 rfl (0 : Fin 1) n).trans ?_
  refine (cat2_eq_cat _ _ n).trans ?_
  have e1 : (fun t : Fin 3968 => matmul dot_S1x128_S128x3968_S1x3968_1_0_0_1_n_n none v1 v30
        (constant S1x3968 .f32 0x00000000#32) (ix2 (0 : Fin 1) t))
      = fun t => ∑ d : Fin 128, v1 (ix2 (0 : Fin 1) d) * v30 (ix2 d t) :=
    funext fun t => RowOps.matmul_plain_apply _ dot_cache_plain none v1 v30 (0 : Fin 1) t
  have e2 : (fun j : Fin 65 => matmul dot_S1x128_S128x65_S1x65_1_0_0_1_n_n none v1
        (transpose S128x65 [1, 0]
          (concatenate S65x128 0 [⟨S64x128, v7⟩, ⟨S1x128, v3⟩] concatenates_S64x128_S1x128_S65x128_d0)
          transposes_S65x128_p1_0_S128x65)
        (constant S1x65 .f32 0x00000000#32) (ix2 (0 : Fin 1) j))
      = fun j => ∑ d : Fin 128, v1 (ix2 (0 : Fin 1) d)
          * withLast (fun j d => v7 (ix2 j d)) (fun d => v3 (ix2 (0 : Fin 1) d)) j d :=
    funext fun j => by
      refine (RowOps.matmul_plain_apply _ dot_kept_plain none v1 _ (0 : Fin 1) j).trans ?_
      refine Finset.sum_congr rfl fun d _ => ?_
      rw [keysT_apply, keys_apply]
  exact congrArg₂ (fun x y => cat x y n) e1 e2

end Cert.KernelIdeal.LogitsAt

end
-- ==== Proof.KernelSoftmax.lean ====
/-
  The kernel's softmax of a row of 4033 logits and its output row, each read at one index.

  The softmax piece: the largest logit (a fold of the maximum from minus infinity over the 4033 positions, taken once
  more against minus infinity) is subtracted from every logit, the differences are exponentiated, and each
  exponential is divided by the sum of all 4033 of them; at position n this is the specification's softmax of the row.

  The output piece: the first 3968 weights against the 3968 dequantised value rows, plus the last 65 weights against
  the 64 kept value rows followed by the new value row; at feature d this is the specification's attend.
-/
import proofs.«180641_j77506979824107_1_alg».proof.Proof.AttnSpec
import proofs.«180641_j77506979824107_1_alg».proof.Proof.KernelParts
import proofs.«180641_j77506979824107_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

open Idealize.ShloMosaic Idealize.ShloMosaic.ValueIdx QuantAttn

namespace Cert.KernelIdeal.SoftmaxAt

open Cert.KernelIdeal Cert.KernelIdeal.Gen Cert.KernelIdeal.Parts

/-! ## The row's reductions -/

/-- The one reduced index with the column k put back is the position (0, k) of the row. -/
theorem lift_row (k : Fin (S1x4033.size 1)) :
    reduces_S1x4033_S1.lift (ix1 (0 : Fin 1)) k = ix2 (0 : Fin 1) (⟨k.val, k.isLt⟩ : Fin 4033) := by
  funext a
  apply Fin.ext
  match a with
  | ⟨0, _⟩ => rfl
  | ⟨1, _⟩ => rfl

/-- One number, cast to a one-by-one array and broadcast along the row, reads that number at every position. -/
theorem splat_row (v : FVec Ideal S1 .f32) (n : Fin 4033) :
    broadcastTo S1x4033 (shapeCast S1x1 v shapeCasts_S1_S1x1) broadcasts_S1x1_S1x4033 (ix2 (0 : Fin 1) n)
      = v (ix1 (0 : Fin 1)) := by
  rw [RowOps.broadcastTo_a1_ab_apply, shapeCast_a_1a_apply]

/-- The row's maximum reduction from minus infinity is the fold of max over the 4033 positions. -/
theorem rowMax_apply (lg : FVec Ideal S1x4033 .f32) :
    multiReduction .maximumf [1] S1 lg 0xFF800000#32 reduces_S1x4033_S1 (.inl rfl) rfl (ix1 (0 : Fin 1))
      = (Finset.univ : Finset (Fin 4033)).fold max (Ideal.ofBits .f32 0xFF800000#32) (fun k => lg (ix2 (0 : Fin 1) k)) := by
  refine (Ideal.multiReduction_maximumf_single lg _ reduces_S1x4033_S1 _ _ (ix1 (0 : Fin 1))).trans ?_
  show (Finset.univ : Finset (Fin 4033)).fold max (Ideal.ofBits .f32 0xFF800000#32)
      (fun k : Fin 4033 => lg (reduces_S1x4033_S1.lift (ix1 (0 : Fin 1)) k)) = _
  exact congrArg (fun f : Fin 4033 → EReal => (Finset.univ : Finset (Fin 4033)).fold max (Ideal.ofBits .f32 0xFF800000#32) f)
    (funext fun k => congrArg lg (lift_row k))

/-- The row's sum reduction is the sum over the 4033 positions. -/
theorem rowSum_apply (ex : FVec Ideal S1x4033 .f32) :
    multiReduction .add [1] S1 ex 0x00000000#32 reduces_S1x4033_S1 (.inl rfl) rfl (ix1 (0 : Fin 1))
      = ∑ k : Fin 4033, ex (ix2 (0 : Fin 1) k) := by
  refine (Ideal.multiReduction_add_single ex _ reduces_S1x4033_S1 _ _ (ix1 (0 : Fin 1))).trans ?_
  show (∑ k : Fin 4033, ex (reduces_S1x4033_S1.lift (ix1 (0 : Fin 1)) k)) = _
  exact Finset.sum_congr rfl fun k _ => congrArg ex (lift_row k)

/-! ## The softmax of the row -/

/-- The largest logit, as the kernel spreads it along the row: at every position the specification's row top. -/
theorem topRow_apply (lg : FVec Ideal S1x4033 .f32) (n : Fin 4033) :
    broadcastTo S1x4033
        (shapeCast S1x1
          (maximumf (broadcast S1 (Scalar.ofBits (F := Ideal) .f32 0xFF800000#32))
            (multiReduction .maximumf [1] S1 lg 0xFF800000#32 reduces_S1x4033_S1 (.inl rfl) rfl))
          shapeCasts_S1_S1x1)
        broadcasts_S1x1_S1x4033 (ix2 (0 : Fin 1) n)
      = rowTop (fun k => lg (ix2 (0 : Fin 1) k)) := by
  refine (splat_row _ n).trans ?_
  show max (Ideal.ofBits .f32 0xFF800000#32)
      (multiReduction .maximumf [1] S1 lg 0xFF800000#32 reduces_S1x4033_S1 (.inl rfl) rfl (ix1 (0 : Fin 1))) = _
  rw [rowMax_apply]
  rfl

/-- The shifted exponentials of the row, as an array: the logits minus the spread row top, exponentiated. -/
def exRow (lg : FVec Ideal S1x4033 .f32) : FVec Ideal S1x4033 .f32 :=
  exp (subf lg
    (broadcastTo S1x4033
      (shapeCast S1x1
        (maximumf (broadcast S1 (Scalar.ofBits (F := Ideal) .f32 0xFF800000#32))
          (multiReduction .maximumf [1] S1 lg 0xFF800000#32 reduces_S1x4033_S1 (.inl rfl) rfl))
        shapeCasts_S1_S1x1)
      broadcasts_S1x1_S1x4033))

/-- At position n the array of shifted exponentials holds the specification's shifted exponential. -/
theorem exRow_apply (lg : FVec Ideal S1x4033 .f32) (n : Fin 4033) :
    exRow lg (ix2 (0 : Fin 1) n) = rowEx (fun k => lg (ix2 (0 : Fin 1) k)) n := by
  show Ideal.exp (lg (ix2 (0 : Fin 1) n) - _) = _
  rw [topRow_apply]
  rfl

/-- The kernel's softmax is the shifted exponentials divided by their sum spread along the row. -/
theorem softmaxRow_eq (lg : FVec Ideal S1x4033 .f32) :
    softmaxRow (F := Ideal) lg
      = divf (exRow lg)
          (broadcastTo S1x4033
            (shapeCast S1x1 (multiReduction .add [1] S1 (exRow lg) 0x00000000#32 reduces_S1x4033_S1 (.inl rfl) rfl)
              shapeCasts_S1_S1x1)
            broadcasts_S1x1_S1x4033) := rfl

/-- The kernel's softmax of a row of logits, at position n, is the specification's softmax of that row:
    the shifted exponential at n over the sum of all 4033 shifted exponentials. -/
theorem softmaxRow_apply (lg : FVec Ideal S1x4033 .f32) (n : Fin 4033) :
    softmaxRow (F := Ideal) lg (ix2 (0 : Fin 1) n) = softmax (fun k => lg (ix2 (0 : Fin 1) k)) n := by
  rw [softmaxRow_eq]
  show Ideal.div (exRow lg (ix2 (0 : Fin 1) n))
      (broadcastTo S1x4033
        (shapeCast S1x1 (multiReduction .add [1] S1 (exRow lg) 0x00000000#32 reduces_S1x4033_S1 (.inl rfl) rfl)
          shapeCasts_S1_S1x1)
        broadcasts_S1x1_S1x4033 (ix2 (0 : Fin 1) n)) = _
  rw [splat_row, rowSum_apply, exRow_apply]
  unfold softmax
  exact congrArg (Ideal.div (rowEx (fun k => lg (ix2 (0 : Fin 1) k)) n))
    (Finset.sum_congr rfl fun k _ => exRow_apply lg k)

/-! ## The output row -/

/-- The first 3968 positions cut out of the row of weights: position t of the cut is position t of the row. -/
theorem headSlice_apply (p : FVec Ideal S1x4033 .f32) (t : Fin 3968) :
    extractStridedSlice S1x3968 ![0, 0] p slices_S1x4033_o0_0_S1x3968 (ix2 (0 : Fin 1) t)
      = p (ix2 (0 : Fin 1) (⟨t.val, by have := t.isLt; omega⟩ : Fin 4033)) :=
  extractStridedSlice_apply _ p _ _ _ (fun a => by
    match a with
    | ⟨0, _⟩ => rfl
    | ⟨1, _⟩ => show t.val = 0 + t.val; omega)

/-- The last 65 positions cut out of the row of weights: position j of the cut is position 3968 + j of the row. -/
theorem tailSlice_apply (p : FVec Ideal S1x4033 .f32) (j : Fin 65) :
    extractStridedSlice S1x65 ![0, 3968] p slices_S1x4033_o0_3968_S1x65 (ix2 (0 : Fin 1) j)
      = p (ix2 (0 : Fin 1) (⟨3968 + j.val, by have := j.isLt; omega⟩ : Fin 4033)) :=
  extractStridedSlice_apply _ p _ _ _ (fun a => by
    match a with
    | ⟨0, _⟩ => rfl
    | ⟨1, _⟩ => rfl)

/-- Sixty-four rows with one more row laid under them: row j of the result. -/
theorem stackRows_apply (x : FVec Ideal S64x128 .f32) (y : FVec Ideal S1x128 .f32) (j : Fin 65) (d : Fin 128) :
    concatenate S65x128 0 [⟨S64x128, x⟩, ⟨S1x128, y⟩] concatenates_S64x128_S1x128_S65x128_d0 (ix2 j d)
      = withLast (fun j d => x (ix2 j d)) (fun d => y (ix2 (0 : Fin 1) d)) j d := by
  unfold withLast
  have hj65 := j.isLt
  by_cases hj : j.val < 64
  · rw [dif_pos hj]
    exact concatenate_apply_piece (0 : Fin S65x128.rank) [⟨S64x128, x⟩, ⟨S1x128, y⟩] concatenates_S64x128_S1x128_S65x128_d0
      (ix2 j d) 0 (by simp) S64x128 x rfl rfl 0 rfl (ix2 (⟨j.val, hj⟩ : Fin 64) d) (fun b hb => by
        match b with
        | ⟨0, _⟩ => exact absurd (Fin.ext rfl) hb
        | ⟨1, _⟩ => rfl) (Nat.zero_add _)
  · rw [dif_neg hj]
    exact concatenate_apply_piece (0 : Fin S65x128.rank) [⟨S64x128, x⟩, ⟨S1x128, y⟩] concatenates_S64x128_S1x128_S65x128_d0
      (ix2 j d) 1 (by simp) S1x128 y rfl rfl 64 (by simp) (ix2 (0 : Fin 1) d) (fun b hb => by
        match b with
        | ⟨0, _⟩ => exact absurd (Fin.ext rfl) hb
        | ⟨1, _⟩ => rfl) (by show 64 + 0 = j.val; omega)

/-- The first 3968 weights against the dequantised values, at feature d. -/
theorem headProd_apply (p : FVec Ideal S1x4033 .f32) (vd : FVec Ideal S3968x128 .f32) (d : Fin 128) :
    matmul dot_S1x3968_S3968x128_S1x128_1_0_0_1_n_n none
        (extractStridedSlice S1x3968 ![0, 0] p slices_S1x4033_o0_0_S1x3968) vd
        (constant S1x128 .f32 0x00000000#32) (ix2 (0 : Fin 1) d)
      = ∑ t : Fin 3968, p (ix2 (0 : Fin 1) (⟨t.val, by have := t.isLt; omega⟩ : Fin 4033)) * vd (ix2 t d) := by
  refine (RowOps.matmul_plain_apply dot_S1x3968_S3968x128_S1x128_1_0_0_1_n_n rfl none _ vd (0 : Fin 1) d).trans ?_
  exact Finset.sum_congr rfl fun t _ => congrArg (· * vd (ix2 t d)) (headSlice_apply p t)

/-- The last 65 weights against the kept values and the new value, at feature d. -/
theorem tailProd_apply (p : FVec Ideal S1x4033 .f32) (v9 : FVec Ideal S64x128 .f32) (v5 : FVec Ideal S1x128 .f32)
    (d : Fin 128) :
    matmul dot_S1x65_S65x128_S1x128_1_0_0_1_n_n none
        (extractStridedSlice S1x65 ![0, 3968] p slices_S1x4033_o0_3968_S1x65)
        (concatenate S65x128 0 [⟨S64x128, v9⟩, ⟨S1x128, v5⟩] concatenates_S64x128_S1x128_S65x128_d0)
        (constant S1x128 .f32 0x00000000#32) (ix2 (0 : Fin 1) d)
      = ∑ j : Fin 65, p (ix2 (0 : Fin 1) (⟨3968 + j.val, by have := j.isLt; omega⟩ : Fin 4033))
          * withLast (fun j d => v9 (ix2 j d)) (fun d => v5 (ix2 (0 : Fin 1) d)) j d := by
  refine (RowOps.matmul_plain_apply dot_S1x65_S65x128_S1x128_1_0_0_1_n_n rfl none _ _ (0 : Fin 1) d).trans ?_
  exact Finset.sum_congr rfl fun j _ => by rw [tailSlice_apply, stackRows_apply]

/-- The kernel's output row from the weights, at feature d, is the specification's weighted sum: the first 3968
    weights against the dequantised values plus the last 65 against the kept values and the new value. -/
theorem outRow_apply (p : FVec Ideal S1x4033 .f32) (vd : FVec Ideal S3968x128 .f32) (v9 : FVec Ideal S64x128 .f32)
    (v5 : FVec Ideal S1x128 .f32) (d : Fin 128) :
    outRow (F := Ideal) p vd v9 v5 (ix2 (0 : Fin 1) d)
      = attend (fun n => p (ix2 (0 : Fin 1) n)) (fun t d => vd (ix2 t d))
          (withLast (fun j d => v9 (ix2 j d)) (fun d => v5 (ix2 (0 : Fin 1) d))) d := by
  show matmul dot_S1x3968_S3968x128_S1x128_1_0_0_1_n_n none
        (extractStridedSlice S1x3968 ![0, 0] p slices_S1x4033_o0_0_S1x3968) vd
        (constant S1x128 .f32 0x00000000#32) (ix2 (0 : Fin 1) d)
      + matmul dot_S1x65_S65x128_S1x128_1_0_0_1_n_n none
        (extractStridedSlice S1x65 ![0, 3968] p slices_S1x4033_o0_3968_S1x65)
        (concatenate S65x128 0 [⟨S64x128, v9⟩, ⟨S1x128, v5⟩] concatenates_S64x128_S1x128_S65x128_d0)
        (constant S1x128 .f32 0x00000000#32) (ix2 (0 : Fin 1) d) = _
  rw [headProd_apply, tailProd_apply]
  rfl

end Cert.KernelIdeal.SoftmaxAt

end
-- ==== Proof.KernelHead.lean ====
/-
  The kernel body's value at one grid point is the head's output.

  The body's loaded rows make up one head of the specification (`rowsHead`); its one pure term, read at feature `d`
  of its single output row, is that head's output at `d`: the five pieces of the body (the two dequantised caches,
  the logits, the softmax, the weighted sums) each read at an index, composed.
-/
import proofs.«180641_j77506979824107_1_alg».proof.Proof.KernelParts
import proofs.«180641_j77506979824107_1_alg».proof.Proof.AttnSpec
import proofs.«180641_j77506979824107_1_alg».proof.Proof.KernelDequant
import proofs.«180641_j77506979824107_1_alg».proof.Proof.KernelLogits
import proofs.«180641_j77506979824107_1_alg».proof.Proof.KernelSoftmax

noncomputable section

open scoped BigOperators

namespace Cert.KernelIdeal.HeadAt

open Cert.KernelIdeal Cert.KernelIdeal.Gen Cert.KernelIdeal.Parts Idealize.ShloMosaic Idealize.ShloMosaic.ValueIdx QuantAttn

/-- The head whose rows are the values the body loads (each staging block cast to its two trailing axes). -/
def rowsHead (v1 v3 v5 : FVec Ideal S1x128 .f32) (v7 v9 : FVec Ideal S64x128 .f32) (v11 v13 : FVec Ideal S128x62 .f32)
    (v15 v17 : FVec Ideal S3968x2 .f32) (v18 : Vec Ideal S1x1x128x3968 .i32) (v20 : Vec Ideal S1x1x3968x128 .i32) : Head where
  q a := v1 (ix2 (0 : Fin 1) a)
  kn a := v3 (ix2 (0 : Fin 1) a)
  vn a := v5 (ix2 (0 : Fin 1) a)
  kfull j a := v7 (ix2 j a)
  vfull j a := v9 (ix2 j a)
  kscale a g := v11 (ix2 a g)
  kmn a g := v13 (ix2 a g)
  vscale t g := v15 (ix2 t g)
  vmn t g := v17 (ix2 t g)
  kq a t := v18 (ix4 (0 : Fin 1) (0 : Fin 1) a t)
  vq t a := v20 (ix4 (0 : Fin 1) (0 : Fin 1) t a)

/-- The body's value at feature `d` is the output of the head its loads make up. -/
theorem pay11_apply (v1 v3 v5 : FVec Ideal S1x128 .f32) (v7 v9 : FVec Ideal S64x128 .f32) (v11 v13 : FVec Ideal S128x62 .f32)
    (v15 v17 : FVec Ideal S3968x2 .f32) (v18 : Vec Ideal S1x1x128x3968 .i32) (v20 : Vec Ideal S1x1x3968x128 .i32) (d : Fin 128) :
    k0_pay11 (F := Ideal) v1 v3 v5 v7 v9 v11 v13 v15 v17 v18 v20 (ix2 (0 : Fin 1) d)
      = (rowsHead v1 v3 v5 v7 v9 v11 v13 v15 v17 v18 v20).out d := by
  rw [pay11_cut, SoftmaxAt.outRow_apply]
  have e1 : (fun n => softmaxRow (F := Ideal) (logits v1 v3 v7 (keyCache v11 v13 v18)) (ix2 (0 : Fin 1) n))
      = softmax (scores (rowsHead v1 v3 v5 v7 v9 v11 v13 v15 v17 v18 v20).q (rowsHead v1 v3 v5 v7 v9 v11 v13 v15 v17 v18 v20).kdeq (withLast (rowsHead v1 v3 v5 v7 v9 v11 v13 v15 v17 v18 v20).kfull (rowsHead v1 v3 v5 v7 v9 v11 v13 v15 v17 v18 v20).kn)) := by
    funext n
    rw [SoftmaxAt.softmaxRow_apply]
    refine congrArg (fun l => softmax l n) (funext fun k => ?_)
    rw [LogitsAt.logits_apply]
    refine congrArg (fun kd => scores (rowsHead v1 v3 v5 v7 v9 v11 v13 v15 v17 v18 v20).q kd (withLast (rowsHead v1 v3 v5 v7 v9 v11 v13 v15 v17 v18 v20).kfull (rowsHead v1 v3 v5 v7 v9 v11 v13 v15 v17 v18 v20).kn) k) (funext fun a => funext fun t => ?_)
    exact DequantAt.keyCache_apply v11 v13 v18 a t
  have e2 : (fun t a => valueCache (F := Ideal) v15 v17 v20 (ix2 t a)) = (rowsHead v1 v3 v5 v7 v9 v11 v13 v15 v17 v18 v20).vdeq := by
    funext t a
    exact DequantAt.valueCache_apply v15 v17 v20 t a
  rw [e1, e2]
  rfl

end Cert.KernelIdeal.HeadAt

end
-- ==== Proof.KernelRun.lean ====
/-
  The kernel's run, read as values.

  The grid has one point per (batch, head) pair: point `t` is batch `t / 32`, head `t % 32`, and every window's
  block at `t` is the `[1, 1, ·, ·]` slab of its array at that pair.  So the body at `t` loads exactly the rows of
  head `(t / 32, t % 32)` of the argument arrays (the query, the new key and the new value through a host transpose
  `[b, 1, h, d] → [b, h, 1, d]`), and what it writes back is that head's output row.  The 128 blocks tile the
  `[4, 32, 1, 128]` result of the region; the host transposes it to `[4, 1, 32, 128]`.
-/
import proofs.«180641_j77506979824107_1_alg».proof.Proof.Gen.KernelIdeal.Frame
import proofs.«180641_j77506979824107_1_alg».proof.Proof.KernelHead
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.RunValue

open Cert.KernelIdeal Cert.KernelIdeal.Gen Idealize.ShloMosaic Idealize.ShloMosaic.TcCoe Idealize.ShloMosaic.ValueIdx
open Idealize.SL.Sem QuantAttn
open Idealize.ShloMosaic.Pipeline (Dat)

/-! ## Grid points are (batch, head) pairs -/

/-- The batch of grid point `t`. -/
def bOf (t : Fin cfg0.N) : Fin 4 := ⟨t.val / 32, by have h : t.val < 128 := lt_of_lt_of_eq t.isLt N_0; omega⟩

/-- The head of grid point `t`. -/
def hOf (t : Fin cfg0.N) : Fin 32 := ⟨t.val % 32, by omega⟩

/-- The grid point of a (batch, head) pair. -/
def ptOf (b : Fin 4) (h : Fin 32) : Fin cfg0.N := ⟨b.val * 32 + h.val, by
  have hb := b.isLt; have hh := h.isLt
  exact lt_of_lt_of_eq (by omega : b.val * 32 + h.val < 128) N_0.symm⟩

/-! Each window's block index at point `t` is `(t / 32, t % 32, 0, 0)`: decided over the 128 points. -/

theorem idx_0 : ∀ t : Fin cfg0.N, win0_0.index t (0 : Fin 4) = t.val / 32 ∧ win0_0.index t (1 : Fin 4) = t.val % 32
    ∧ win0_0.index t (2 : Fin 4) = 0 ∧ win0_0.index t (3 : Fin 4) = 0 :=
  (by decide +kernel : ∀ t : Fin grid0.N, _)

theorem idx_1 : ∀ t : Fin cfg0.N, win0_1.index t (0 : Fin 4) = t.val / 32 ∧ win0_1.index t (1 : Fin 4) = t.val % 32
    ∧ win0_1.index t (2 : Fin 4) = 0 ∧ win0_1.index t (3 : Fin 4) = 0 :=
  (by decide +kernel : ∀ t : Fin grid0.N, _)

theorem idx_2 : ∀ t : Fin cfg0.N, win0_2.index t (0 : Fin 4) = t.val / 32 ∧ win0_2.index t (1 : Fin 4) = t.val % 32
    ∧ win0_2.index t (2 : Fin 4) = 0 ∧ win0_2.index t (3 : Fin 4) = 0 :=
  (by decide +kernel : ∀ t : Fin grid0.N, _)

theorem idx_3 : ∀ t : Fin cfg0.N, win0_3.index t (0 : Fin 4) = t.val / 32 ∧ win0_3.index t (1 : Fin 4) = t.val % 32
    ∧ win0_3.index t (2 : Fin 4) = 0 ∧ win0_3.index t (3 : Fin 4) = 0 :=
  (by decide +kernel : ∀ t : Fin grid0.N, _)

theorem idx_4 : ∀ t : Fin cfg0.N, win0_4.index t (0 : Fin 4) = t.val / 32 ∧ win0_4.index t (1 : Fin 4) = t.val % 32
    ∧ win0_4.index t (2 : Fin 4) = 0 ∧ win0_4.index t (3 : Fin 4) = 0 :=
  (by decide +kernel : ∀ t : Fin grid0.N, _)

theorem idx_5 : ∀ t : Fin cfg0.N, win0_5.index t (0 : Fin 4) = t.val / 32 ∧ win0_5.index t (1 : Fin 4) = t.val % 32
    ∧ win0_5.index t (2 : Fin 4) = 0 ∧ win0_5.index t (3 : Fin 4) = 0 :=
  (by decide +kernel : ∀ t : Fin grid0.N, _)

theorem idx_6 : ∀ t : Fin cfg0.N, win0_6.index t (0 : Fin 4) = t.val / 32 ∧ win0_6.index t (1 : Fin 4) = t.val % 32
    ∧ win0_6.index t (2 : Fin 4) = 0 ∧ win0_6.index t (3 : Fin 4) = 0 :=
  (by decide +kernel : ∀ t : Fin grid0.N, _)

theorem idx_7 : ∀ t : Fin cfg0.N, win0_7.index t (0 : Fin 4) = t.val / 32 ∧ win0_7.index t (1 : Fin 4) = t.val % 32
    ∧ win0_7.index t (2 : Fin 4) = 0 ∧ win0_7.index t (3 : Fin 4) = 0 :=
  (by decide +kernel : ∀ t : Fin grid0.N, _)

theorem idx_8 : ∀ t : Fin cfg0.N, win0_8.index t (0 : Fin 4) = t.val / 32 ∧ win0_8.index t (1 : Fin 4) = t.val % 32
    ∧ win0_8.index t (2 : Fin 4) = 0 ∧ win0_8.index t (3 : Fin 4) = 0 :=
  (by decide +kernel : ∀ t : Fin grid0.N, _)

theorem idx_9 : ∀ t : Fin cfg0.N, win0_9.index t (0 : Fin 4) = t.val / 32 ∧ win0_9.index t (1 : Fin 4) = t.val % 32
    ∧ win0_9.index t (2 : Fin 4) = 0 ∧ win0_9.index t (3 : Fin 4) = 0 :=
  (by decide +kernel : ∀ t : Fin grid0.N, _)

theorem idx_10 : ∀ t : Fin cfg0.N, win0_10.index t (0 : Fin 4) = t.val / 32 ∧ win0_10.index t (1 : Fin 4) = t.val % 32
    ∧ win0_10.index t (2 : Fin 4) = 0 ∧ win0_10.index t (3 : Fin 4) = 0 :=
  (by decide +kernel : ∀ t : Fin grid0.N, _)

theorem idx_11 : ∀ t : Fin cfg0.N, win0_11.index t (0 : Fin 4) = t.val / 32 ∧ win0_11.index t (1 : Fin 4) = t.val % 32
    ∧ win0_11.index t (2 : Fin 4) = 0 ∧ win0_11.index t (3 : Fin 4) = 0 :=
  (by decide +kernel : ∀ t : Fin grid0.N, _)

/-! So position `(0, 0, p, q)` of a window's block at `t` is position `(t / 32, t % 32, p, q)` of its array. -/

theorem emb_0 (t : Fin cfg0.N) (p : Fin 1) (q : Fin 128) :
    ((cfg0.win 0).blk t).view.emb (ix4 (0 : Fin 1) (0 : Fin 1) p q : S1x1x1x128.Idx) = (ix4 (bOf t) (hOf t) p q : S4x32x1x128.Idx) := by
  obtain ⟨e0, e1, e2, e3⟩ := idx_0 t
  funext a; apply Fin.ext
  match a with
  | ⟨0, _⟩ => show win0_0.index t (0 : Fin 4) * 1 + 1 * 0 = t.val / 32; omega
  | ⟨1, _⟩ => show win0_0.index t (1 : Fin 4) * 1 + 1 * 0 = t.val % 32; omega
  | ⟨2, _⟩ => show win0_0.index t (2 : Fin 4) * 1 + 1 * p.val = p.val; omega
  | ⟨3, _⟩ => show win0_0.index t (3 : Fin 4) * 128 + 1 * q.val = q.val; omega

theorem emb_1 (t : Fin cfg0.N) (p : Fin 1) (q : Fin 128) :
    ((cfg0.win 1).blk t).view.emb (ix4 (0 : Fin 1) (0 : Fin 1) p q : S1x1x1x128.Idx) = (ix4 (bOf t) (hOf t) p q : S4x32x1x128.Idx) := by
  obtain ⟨e0, e1, e2, e3⟩ := idx_1 t
  funext a; apply Fin.ext
  match a with
  | ⟨0, _⟩ => show win0_1.index t (0 : Fin 4) * 1 + 1 * 0 = t.val / 32; omega
  | ⟨1, _⟩ => show win0_1.index t (1 : Fin 4) * 1 + 1 * 0 = t.val % 32; omega
  | ⟨2, _⟩ => show win0_1.index t (2 : Fin 4) * 1 + 1 * p.val = p.val; omega
  | ⟨3, _⟩ => show win0_1.index t (3 : Fin 4) * 128 + 1 * q.val = q.val; omega

theorem emb_2 (t : Fin cfg0.N) (p : Fin 1) (q : Fin 128) :
    ((cfg0.win 2).blk t).view.emb (ix4 (0 : Fin 1) (0 : Fin 1) p q : S1x1x1x128.Idx) = (ix4 (bOf t) (hOf t) p q : S4x32x1x128.Idx) := by
  obtain ⟨e0, e1, e2, e3⟩ := idx_2 t
  funext a; apply Fin.ext
  match a with
  | ⟨0, _⟩ => show win0_2.index t (0 : Fin 4) * 1 + 1 * 0 = t.val / 32; omega
  | ⟨1, _⟩ => show win0_2.index t (1 : Fin 4) * 1 + 1 * 0 = t.val % 32; omega
  | ⟨2, _⟩ => show win0_2.index t (2 : Fin 4) * 1 + 1 * p.val = p.val; omega
  | ⟨3, _⟩ => show win0_2.index t (3 : Fin 4) * 128 + 1 * q.val = q.val; omega

theorem emb_3 (t : Fin cfg0.N) (p : Fin 64) (q : Fin 128) :
    ((cfg0.win 3).blk t).view.emb (ix4 (0 : Fin 1) (0 : Fin 1) p q : S1x1x64x128.Idx) = (ix4 (bOf t) (hOf t) p q : S4x32x64x128.Idx) := by
  obtain ⟨e0, e1, e2, e3⟩ := idx_3 t
  funext a; apply Fin.ext
  match a with
  | ⟨0, _⟩ => show win0_3.index t (0 : Fin 4) * 1 + 1 * 0 = t.val / 32; omega
  | ⟨1, _⟩ => show win0_3.index t (1 : Fin 4) * 1 + 1 * 0 = t.val % 32; omega
  | ⟨2, _⟩ => show win0_3.index t (2 : Fin 4) * 64 + 1 * p.val = p.val; omega
  | ⟨3, _⟩ => show win0_3.index t (3 : Fin 4) * 128 + 1 * q.val = q.val; omega

theorem emb_4 (t : Fin cfg0.N) (p : Fin 64) (q : Fin 128) :
    ((cfg0.win 4).blk t).view.emb (ix4 (0 : Fin 1) (0 : Fin 1) p q : S1x1x64x128.Idx) = (ix4 (bOf t) (hOf t) p q : S4x32x64x128.Idx) := by
  obtain ⟨e0, e1, e2, e3⟩ := idx_4 t
  funext a; apply Fin.ext
  match a with
  | ⟨0, _⟩ => show win0_4.index t (0 : Fin 4) * 1 + 1 * 0 = t.val / 32; omega
  | ⟨1, _⟩ => show win0_4.index t (1 : Fin 4) * 1 + 1 * 0 = t.val % 32; omega
  | ⟨2, _⟩ => show win0_4.index t (2 : Fin 4) * 64 + 1 * p.val = p.val; omega
  | ⟨3, _⟩ => show win0_4.index t (3 : Fin 4) * 128 + 1 * q.val = q.val; omega

theorem emb_5 (t : Fin cfg0.N) (p : Fin 128) (q : Fin 62) :
    ((cfg0.win 5).blk t).view.emb (ix4 (0 : Fin 1) (0 : Fin 1) p q : S1x1x128x62.Idx) = (ix4 (bOf t) (hOf t) p q : S4x32x128x62.Idx) := by
  obtain ⟨e0, e1, e2, e3⟩ := idx_5 t
  funext a; apply Fin.ext
  match a with
  | ⟨0, _⟩ => show win0_5.index t (0 : Fin 4) * 1 + 1 * 0 = t.val / 32; omega
  | ⟨1, _⟩ => show win0_5.index t (1 : Fin 4) * 1 + 1 * 0 = t.val % 32; omega
  | ⟨2, _⟩ => show win0_5.index t (2 : Fin 4) * 128 + 1 * p.val = p.val; omega
  | ⟨3, _⟩ => show win0_5.index t (3 : Fin 4) * 62 + 1 * q.val = q.val; omega

theorem emb_6 (t : Fin cfg0.N) (p : Fin 128) (q : Fin 62) :
    ((cfg0.win 6).blk t).view.emb (ix4 (0 : Fin 1) (0 : Fin 1) p q : S1x1x128x62.Idx) = (ix4 (bOf t) (hOf t) p q : S4x32x128x62.Idx) := by
  obtain ⟨e0, e1, e2, e3⟩ := idx_6 t
  funext a; apply Fin.ext
  match a with
  | ⟨0, _⟩ => show win0_6.index t (0 : Fin 4) * 1 + 1 * 0 = t.val / 32; omega
  | ⟨1, _⟩ => show win0_6.index t (1 : Fin 4) * 1 + 1 * 0 = t.val % 32; omega
  | ⟨2, _⟩ => show win0_6.index t (2 : Fin 4) * 128 + 1 * p.val = p.val; omega
  | ⟨3, _⟩ => show win0_6.index t (3 : Fin 4) * 62 + 1 * q.val = q.val; omega

theorem emb_7 (t : Fin cfg0.N) (p : Fin 3968) (q : Fin 2) :
    ((cfg0.win 7).blk t).view.emb (ix4 (0 : Fin 1) (0 : Fin 1) p q : S1x1x3968x2.Idx) = (ix4 (bOf t) (hOf t) p q : S4x32x3968x2.Idx) := by
  obtain ⟨e0, e1, e2, e3⟩ := idx_7 t
  funext a; apply Fin.ext
  match a with
  | ⟨0, _⟩ => show win0_7.index t (0 : Fin 4) * 1 + 1 * 0 = t.val / 32; omega
  | ⟨1, _⟩ => show win0_7.index t (1 : Fin 4) * 1 + 1 * 0 = t.val % 32; omega
  | ⟨2, _⟩ => show win0_7.index t (2 : Fin 4) * 3968 + 1 * p.val = p.val; omega
  | ⟨3, _⟩ => show win0_7.index t (3 : Fin 4) * 2 + 1 * q.val = q.val; omega

theorem emb_8 (t : Fin cfg0.N) (p : Fin 3968) (q : Fin 2) :
    ((cfg0.win 8).blk t).view.emb (ix4 (0 : Fin 1) (0 : Fin 1) p q : S1x1x3968x2.Idx) = (ix4 (bOf t) (hOf t) p q : S4x32x3968x2.Idx) := by
  obtain ⟨e0, e1, e2, e3⟩ := idx_8 t
  funext a; apply Fin.ext
  match a with
  | ⟨0, _⟩ => show win0_8.index t (0 : Fin 4) * 1 + 1 * 0 = t.val / 32; omega
  | ⟨1, _⟩ => show win0_8.index t (1 : Fin 4) * 1 + 1 * 0 = t.val % 32; omega
  | ⟨2, _⟩ => show win0_8.index t (2 : Fin 4) * 3968 + 1 * p.val = p.val; omega
  | ⟨3, _⟩ => show win0_8.index t (3 : Fin 4) * 2 + 1 * q.val = q.val; omega

theorem emb_9 (t : Fin cfg0.N) (p : Fin 128) (q : Fin 3968) :
    ((cfg0.win 9).blk t).view.emb (ix4 (0 : Fin 1) (0 : Fin 1) p q : S1x1x128x3968.Idx) = (ix4 (bOf t) (hOf t) p q : S4x32x128x3968.Idx) := by
  obtain ⟨e0, e1, e2, e3⟩ := idx_9 t
  funext a; apply Fin.ext
  match a with
  | ⟨0, _⟩ => show win0_9.index t (0 : Fin 4) * 1 + 1 * 0 = t.val / 32; omega
  | ⟨1, _⟩ => show win0_9.index t (1 : Fin 4) * 1 + 1 * 0 = t.val % 32; omega
  | ⟨2, _⟩ => show win0_9.index t (2 : Fin 4) * 128 + 1 * p.val = p.val; omega
  | ⟨3, _⟩ => show win0_9.index t (3 : Fin 4) * 3968 + 1 * q.val = q.val; omega

theorem emb_10 (t : Fin cfg0.N) (p : Fin 3968) (q : Fin 128) :
    ((cfg0.win 10).blk t).view.emb (ix4 (0 : Fin 1) (0 : Fin 1) p q : S1x1x3968x128.Idx) = (ix4 (bOf t) (hOf t) p q : S4x32x3968x128.Idx) := by
  obtain ⟨e0, e1, e2, e3⟩ := idx_10 t
  funext a; apply Fin.ext
  match a with
  | ⟨0, _⟩ => show win0_10.index t (0 : Fin 4) * 1 + 1 * 0 = t.val / 32; omega
  | ⟨1, _⟩ => show win0_10.index t (1 : Fin 4) * 1 + 1 * 0 = t.val % 32; omega
  | ⟨2, _⟩ => show win0_10.index t (2 : Fin 4) * 3968 + 1 * p.val = p.val; omega
  | ⟨3, _⟩ => show win0_10.index t (3 : Fin 4) * 128 + 1 * q.val = q.val; omega

theorem emb_11 (t : Fin cfg0.N) (p : Fin 1) (q : Fin 128) :
    ((cfg0.win 11).blk t).view.emb (ix4 (0 : Fin 1) (0 : Fin 1) p q : S1x1x1x128.Idx) = (ix4 (bOf t) (hOf t) p q : S4x32x1x128.Idx) := by
  obtain ⟨e0, e1, e2, e3⟩ := idx_11 t
  funext a; apply Fin.ext
  match a with
  | ⟨0, _⟩ => show win0_11.index t (0 : Fin 4) * 1 + 1 * 0 = t.val / 32; omega
  | ⟨1, _⟩ => show win0_11.index t (1 : Fin 4) * 1 + 1 * 0 = t.val % 32; omega
  | ⟨2, _⟩ => show win0_11.index t (2 : Fin 4) * 1 + 1 * p.val = p.val; omega
  | ⟨3, _⟩ => show win0_11.index t (3 : Fin 4) * 128 + 1 * q.val = q.val; omega

/-! ## Casting a `[1, 1, P, Q]` block to its two trailing axes, and back -/

theorem cast_rows {α : Type} {P Q : ℕ} (v : (⟨4, ![1, 1, P, Q]⟩ : Shape).Idx → α)
    (h : (⟨4, ![1, 1, P, Q]⟩ : Shape).ShapeCasts ⟨2, ![P, Q]⟩) (p : Fin P) (q : Fin Q) :
    shapeCast ⟨2, ![P, Q]⟩ v h (ix2 p q) = v (ix4 (0 : Fin 1) (0 : Fin 1) p q) :=
  shapeCast_apply v h _ _ (by
    rw [Shape.rowMajor_val_four, Shape.rowMajor_val_two]
    show ((0 * 1 + 0) * P + p.val) * Q + q.val = p.val * Q + q.val
    simp)

theorem cast_block {α : Type} {P Q : ℕ} (v : (⟨2, ![P, Q]⟩ : Shape).Idx → α)
    (h : (⟨2, ![P, Q]⟩ : Shape).ShapeCasts ⟨4, ![1, 1, P, Q]⟩) (p : Fin P) (q : Fin Q) :
    shapeCast ⟨4, ![1, 1, P, Q]⟩ v h (ix4 (0 : Fin 1) (0 : Fin 1) p q) = v (ix2 p q) :=
  shapeCast_apply v h _ _ (by
    rw [Shape.rowMajor_val_two, Shape.rowMajor_val_four]
    show p.val * Q + q.val = ((0 * 1 + 0) * P + p.val) * Q + q.val
    simp)

variable (m : (ℓ : Loc nD τ sig) → Buf (Elt Ideal) ℓ) (ρ : Dev nD → PrngReg)

/-! ## What the region finds: the blocks of the arrays, the first three through a host transpose -/

/-- The host transposes argument 0 `[b, 1, h, d] → [b, h, 1, d]` before the region. -/
theorem V_main_v0_apply (c : Dev nD) (b : Fin 4) (h : Fin 32) (a : Fin 128) :
    V m c main_v0 (ix4 b h (0 : Fin 1) a : S4x32x1x128.Idx)
      = m ((c : Thread nD τ).loc main_arg0) (ix4 b (0 : Fin 1) h a : S4x1x32x128.Idx) := by
  have e : V m c main_v0
      = transpose S4x32x1x128 [0, 2, 1, 3] (m ((c : Thread nD τ).loc main_arg0)) transposes_S4x1x32x128_S4x32x1x128_0_2_1_3 := by
    show StableHlo.after hostOps0 (fun b => m (c, b)) (Proc.devRef .tc main_v0) = _
    after_results
  rw [e]
  exact transpose_apply [0, 2, 1, 3] _ transposes_S4x1x32x128_S4x32x1x128_0_2_1_3 _ (ix4 b (0 : Fin 1) h a : S4x1x32x128.Idx)
    (fun x => match x with
      | ⟨0, _⟩ => rfl
      | ⟨1, _⟩ => rfl
      | ⟨2, _⟩ => rfl
      | ⟨3, _⟩ => rfl)

/-- The host transposes argument 1 `[b, 1, h, d] → [b, h, 1, d]` before the region. -/
theorem V_main_v1_apply (c : Dev nD) (b : Fin 4) (h : Fin 32) (a : Fin 128) :
    V m c main_v1 (ix4 b h (0 : Fin 1) a : S4x32x1x128.Idx)
      = m ((c : Thread nD τ).loc main_arg1) (ix4 b (0 : Fin 1) h a : S4x1x32x128.Idx) := by
  have e : V m c main_v1
      = transpose S4x32x1x128 [0, 2, 1, 3] (m ((c : Thread nD τ).loc main_arg1)) transposes_S4x1x32x128_S4x32x1x128_0_2_1_3 := by
    show StableHlo.after hostOps0 (fun b => m (c, b)) (Proc.devRef .tc main_v1) = _
    after_results
  rw [e]
  exact transpose_apply [0, 2, 1, 3] _ transposes_S4x1x32x128_S4x32x1x128_0_2_1_3 _ (ix4 b (0 : Fin 1) h a : S4x1x32x128.Idx)
    (fun x => match x with
      | ⟨0, _⟩ => rfl
      | ⟨1, _⟩ => rfl
      | ⟨2, _⟩ => rfl
      | ⟨3, _⟩ => rfl)

/-- The host transposes argument 2 `[b, 1, h, d] → [b, h, 1, d]` before the region. -/
theorem V_main_v2_apply (c : Dev nD) (b : Fin 4) (h : Fin 32) (a : Fin 128) :
    V m c main_v2 (ix4 b h (0 : Fin 1) a : S4x32x1x128.Idx)
      = m ((c : Thread nD τ).loc main_arg2) (ix4 b (0 : Fin 1) h a : S4x1x32x128.Idx) := by
  have e : V m c main_v2
      = transpose S4x32x1x128 [0, 2, 1, 3] (m ((c : Thread nD τ).loc main_arg2)) transposes_S4x1x32x128_S4x32x1x128_0_2_1_3 := by
    show StableHlo.after hostOps0 (fun b => m (c, b)) (Proc.devRef .tc main_v2) = _
    after_results
  rw [e]
  exact transpose_apply [0, 2, 1, 3] _ transposes_S4x1x32x128_S4x32x1x128_0_2_1_3 _ (ix4 b (0 : Fin 1) h a : S4x1x32x128.Idx)
    (fun x => match x with
      | ⟨0, _⟩ => rfl
      | ⟨1, _⟩ => rfl
      | ⟨2, _⟩ => rfl
      | ⟨3, _⟩ => rfl)

theorem blk_0 (c : Dev nD) (t : Fin cfg0.N) (p : Fin 1) (q : Fin 128) :
    iblk m c 0 t (ix4 (0 : Fin 1) (0 : Fin 1) p q : S1x1x1x128.Idx) = V m c main_v0 (ix4 (bOf t) (hOf t) p q : S4x32x1x128.Idx) := by
  show V m c main_v0 (((cfg0.win 0).blk t).view.emb (ix4 (0 : Fin 1) (0 : Fin 1) p q : S1x1x1x128.Idx)) = _
  rw [emb_0]

theorem blk_1 (c : Dev nD) (t : Fin cfg0.N) (p : Fin 1) (q : Fin 128) :
    iblk m c 1 t (ix4 (0 : Fin 1) (0 : Fin 1) p q : S1x1x1x128.Idx) = V m c main_v1 (ix4 (bOf t) (hOf t) p q : S4x32x1x128.Idx) := by
  show V m c main_v1 (((cfg0.win 1).blk t).view.emb (ix4 (0 : Fin 1) (0 : Fin 1) p q : S1x1x1x128.Idx)) = _
  rw [emb_1]

theorem blk_2 (c : Dev nD) (t : Fin cfg0.N) (p : Fin 1) (q : Fin 128) :
    iblk m c 2 t (ix4 (0 : Fin 1) (0 : Fin 1) p q : S1x1x1x128.Idx) = V m c main_v2 (ix4 (bOf t) (hOf t) p q : S4x32x1x128.Idx) := by
  show V m c main_v2 (((cfg0.win 2).blk t).view.emb (ix4 (0 : Fin 1) (0 : Fin 1) p q : S1x1x1x128.Idx)) = _
  rw [emb_2]

theorem blk_3 (c : Dev nD) (t : Fin cfg0.N) (p : Fin 64) (q : Fin 128) :
    iblk m c 3 t (ix4 (0 : Fin 1) (0 : Fin 1) p q : S1x1x64x128.Idx) = V m c main_arg3 (ix4 (bOf t) (hOf t) p q : S4x32x64x128.Idx) := by
  show V m c main_arg3 (((cfg0.win 3).blk t).view.emb (ix4 (0 : Fin 1) (0 : Fin 1) p q : S1x1x64x128.Idx)) = _
  rw [emb_3]

theorem blk_4 (c : Dev nD) (t : Fin cfg0.N) (p : Fin 64) (q : Fin 128) :
    iblk m c 4 t (ix4 (0 : Fin 1) (0 : Fin 1) p q : S1x1x64x128.Idx) = V m c main_arg4 (ix4 (bOf t) (hOf t) p q : S4x32x64x128.Idx) := by
  show V m c main_arg4 (((cfg0.win 4).blk t).view.emb (ix4 (0 : Fin 1) (0 : Fin 1) p q : S1x1x64x128.Idx)) = _
  rw [emb_4]

theorem blk_5 (c : Dev nD) (t : Fin cfg0.N) (p : Fin 128) (q : Fin 62) :
    iblk m c 5 t (ix4 (0 : Fin 1) (0 : Fin 1) p q : S1x1x128x62.Idx) = V m c main_arg5 (ix4 (bOf t) (hOf t) p q : S4x32x128x62.Idx) := by
  show V m c main_arg5 (((cfg0.win 5).blk t).view.emb (ix4 (0 : Fin 1) (0 : Fin 1) p q : S1x1x128x62.Idx)) = _
  rw [emb_5]

theorem blk_6 (c : Dev nD) (t : Fin cfg0.N) (p : Fin 128) (q : Fin 62) :
    iblk m c 6 t (ix4 (0 : Fin 1) (0 : Fin 1) p q : S1x1x128x62.Idx) = V m c main_arg6 (ix4 (bOf t) (hOf t) p q : S4x32x128x62.Idx) := by
  show V m c main_arg6 (((cfg0.win 6).blk t).view.emb (ix4 (0 : Fin 1) (0 : Fin 1) p q : S1x1x128x62.Idx)) = _
  rw [emb_6]

theorem blk_7 (c : Dev nD) (t : Fin cfg0.N) (p : Fin 3968) (q : Fin 2) :
    iblk m c 7 t (ix4 (0 : Fin 1) (0 : Fin 1) p q : S1x1x3968x2.Idx) = V m c main_arg7 (ix4 (bOf t) (hOf t) p q : S4x32x3968x2.Idx) := by
  show V m c main_arg7 (((cfg0.win 7).blk t).view.emb (ix4 (0 : Fin 1) (0 : Fin 1) p q : S1x1x3968x2.Idx)) = _
  rw [emb_7]

theorem blk_8 (c : Dev nD) (t : Fin cfg0.N) (p : Fin 3968) (q : Fin 2) :
    iblk m c 8 t (ix4 (0 : Fin 1) (0 : Fin 1) p q : S1x1x3968x2.Idx) = V m c main_arg8 (ix4 (bOf t) (hOf t) p q : S4x32x3968x2.Idx) := by
  show V m c main_arg8 (((cfg0.win 8).blk t).view.emb (ix4 (0 : Fin 1) (0 : Fin 1) p q : S1x1x3968x2.Idx)) = _
  rw [emb_8]

theorem blk_9 (c : Dev nD) (t : Fin cfg0.N) (p : Fin 128) (q : Fin 3968) :
    iblk m c 9 t (ix4 (0 : Fin 1) (0 : Fin 1) p q : S1x1x128x3968.Idx) = V m c main_arg9 (ix4 (bOf t) (hOf t) p q : S4x32x128x3968.Idx) := by
  show V m c main_arg9 (((cfg0.win 9).blk t).view.emb (ix4 (0 : Fin 1) (0 : Fin 1) p q : S1x1x128x3968.Idx)) = _
  rw [emb_9]

theorem blk_10 (c : Dev nD) (t : Fin cfg0.N) (p : Fin 3968) (q : Fin 128) :
    iblk m c 10 t (ix4 (0 : Fin 1) (0 : Fin 1) p q : S1x1x3968x128.Idx) = V m c main_arg10 (ix4 (bOf t) (hOf t) p q : S4x32x3968x128.Idx) := by
  show V m c main_arg10 (((cfg0.win 10).blk t).view.emb (ix4 (0 : Fin 1) (0 : Fin 1) p q : S1x1x3968x128.Idx)) = _
  rw [emb_10]

/-- Head `(b, h)` of the argument arrays as launched on core `c`. -/
abbrev argsHead (c : Dev nD) (b : Fin 4) (h : Fin 32) : Head :=
  headOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b h

/-- The rows the body loads at point `t` make up head `(t / 32, t % 32)` of the arguments. -/
theorem rows_eq (c : Dev nD) (t : Fin cfg0.N) :
    HeadAt.rowsHead (k0_pay2 (iblk m c 0 t)) (k0_pay3 (iblk m c 1 t)) (k0_pay4 (iblk m c 2 t)) (k0_pay5 (iblk m c 3 t))
        (k0_pay6 (iblk m c 4 t)) (k0_pay7 (iblk m c 5 t)) (k0_pay8 (iblk m c 6 t)) (k0_pay9 (iblk m c 7 t))
        (k0_pay10 (iblk m c 8 t)) (iblk m c 9 t) (iblk m c 10 t)
      = argsHead m c (bOf t) (hOf t) := by
  show Head.mk _ _ _ _ _ _ _ _ _ _ _ = Head.mk _ _ _ _ _ _ _ _ _ _ _
  congr 1
  · funext a
    exact (cast_rows _ _ _ _).trans ((blk_0 m c t 0 a).trans (V_main_v0_apply m c _ _ a))
  · funext a
    exact (cast_rows _ _ _ _).trans ((blk_1 m c t 0 a).trans (V_main_v1_apply m c _ _ a))
  · funext a
    exact (cast_rows _ _ _ _).trans ((blk_2 m c t 0 a).trans (V_main_v2_apply m c _ _ a))
  · funext j a
    exact (cast_rows _ _ _ _).trans ((blk_3 m c t j a).trans (congrFun (V_main_arg3 m c) _))
  · funext j a
    exact (cast_rows _ _ _ _).trans ((blk_4 m c t j a).trans (congrFun (V_main_arg4 m c) _))
  · funext a g
    exact (cast_rows _ _ _ _).trans ((blk_5 m c t a g).trans (congrFun (V_main_arg5 m c) _))
  · funext a g
    exact (cast_rows _ _ _ _).trans ((blk_6 m c t a g).trans (congrFun (V_main_arg6 m c) _))
  · funext s g
    exact (cast_rows _ _ _ _).trans ((blk_7 m c t s g).trans (congrFun (V_main_arg7 m c) _))
  · funext s g
    exact (cast_rows _ _ _ _).trans ((blk_8 m c t s g).trans (congrFun (V_main_arg8 m c) _))
  · funext a s
    exact (blk_9 m c t a s).trans (congrFun (V_main_arg9 m c) _)
  · funext s a
    exact (blk_10 m c t s a).trans (congrFun (V_main_arg10 m c) _)

/-! ## What the region writes -/

/-- The region's result array `[4, 32, 1, 128]`: row `(b, h, 0, ·)` is head `(b, h)`'s output. -/
def regionOut (c : Dev nD) : S4x32x1x128.Idx → EReal := fun i => (argsHead m c (i 0) (i 1)).out (i 3)

theorem hz : (![0, 0, 0, 0] : Fin 4 → Nat) = fun _ => 0 := funext fun a => by fin_cases a <;> rfl

/-- What point `t` writes back is block `t` of `regionOut`. -/
theorem flushed_eq (c : Dev nD) (t : Fin cfg0.N) :
    (dats m 0 c).flushed 11 t = ((cfg0.win 11).blk t).view.read (Elt Ideal) (regionOut m c) := by
  show (cfg0.win 11).cut (grid0.coords t) ((dats m 0 c).after 11 t) = _
  rw [after0_11]
  unfold out0_11
  rw [View.canon_unit_zero hz]
  simp only [View.ld_unit_zero (S := S1x1x1x128) hz, View.ld_unit_zero (S := S1x1x64x128) hz, View.ld_unit_zero (S := S1x1x128x62) hz,
    View.ld_unit_zero (S := S1x1x3968x2) hz, View.ld_unit_zero (S := S1x1x128x3968) hz, View.ld_unit_zero (S := S1x1x3968x128) hz]
  funext j
  obtain ⟨a0, a1, p, q, rfl⟩ : ∃ (a0 : Fin 1) (a1 : Fin 1) (p : Fin 1) (q : Fin 128), j = ix4 a0 a1 p q :=
    ⟨j 0, j 1, j 2, j 3, eq_ix4 j⟩
  obtain rfl : a0 = 0 := Subsingleton.elim _ _
  obtain rfl : a1 = 0 := Subsingleton.elim _ _
  obtain rfl : p = 0 := Subsingleton.elim _ _
  show k0_pay1 (k0_pay11 (k0_pay2 (iblk m c 0 t)) (k0_pay3 (iblk m c 1 t)) (k0_pay4 (iblk m c 2 t)) (k0_pay5 (iblk m c 3 t))
        (k0_pay6 (iblk m c 4 t)) (k0_pay7 (iblk m c 5 t)) (k0_pay8 (iblk m c 6 t)) (k0_pay9 (iblk m c 7 t))
        (k0_pay10 (iblk m c 8 t)) (iblk m c 9 t) (iblk m c 10 t)) (ix4 (0 : Fin 1) (0 : Fin 1) (0 : Fin 1) q : S1x1x1x128.Idx)
      = regionOut m c (((cfg0.win 11).blk t).view.emb (ix4 (0 : Fin 1) (0 : Fin 1) (0 : Fin 1) q : S1x1x1x128.Idx))
  rw [emb_11]
  unfold k0_pay1
  refine (cast_block _ _ _ _).trans ?_
  rw [HeadAt.pay11_apply, rows_eq]
  rfl

/-- An index of the region's result is in point `t`'s block iff each coordinate is in the block's range on its axis. -/
theorem mem_blk (t : Fin cfg0.N) (i : S4x32x1x128.Idx) :
    i ∈ ((cfg0.win 11).blk t).view.set ↔ ∀ a : Fin 4, win0_11.index t a * S1x1x1x128.size a ≤ (i a).val
      ∧ (i a).val < win0_11.index t a * S1x1x1x128.size a + S1x1x1x128.size a := by
  show i ∈ ((View.whole main_v3).slice (win0_11.rect t)).set ↔ _
  rw [View.set_slice_whole, Rect.mem_set_unit]
  exact Iff.rfl

/-- Every index `(b, h, 0, d)` of the region's result lies in the block of point `b · 32 + h`. -/
theorem cover (i : S4x32x1x128.Idx) :
    ∃ t : Fin cfg0.N, (cfg0.win 11).flush t = true ∧ i ∈ ((cfg0.win 11).blk t).view.set := by
  refine ⟨ptOf (i 0) (i 1), flush0_11 _, ?_⟩
  rw [mem_blk]
  obtain ⟨e0, e1, e2, e3⟩ := idx_11 (ptOf (i 0) (i 1))
  have h0 : (i 0).val < 4 := (i 0).isLt
  have h1 : (i 1).val < 32 := (i 1).isLt
  have h2 : (i 2).val < 1 := (i 2).isLt
  have h3 : (i 3).val < 128 := (i 3).isLt
  have hv : (ptOf (i 0) (i 1)).val = (i 0).val * 32 + (i 1).val := rfl
  intro a
  match a with
  | ⟨0, _⟩ =>
    show win0_11.index (ptOf (i 0) (i 1)) (0 : Fin 4) * 1 ≤ (i 0).val ∧ (i 0).val < win0_11.index (ptOf (i 0) (i 1)) (0 : Fin 4) * 1 + 1
    omega
  | ⟨1, _⟩ =>
    show win0_11.index (ptOf (i 0) (i 1)) (1 : Fin 4) * 1 ≤ (i 1).val ∧ (i 1).val < win0_11.index (ptOf (i 0) (i 1)) (1 : Fin 4) * 1 + 1
    omega
  | ⟨2, _⟩ =>
    show win0_11.index (ptOf (i 0) (i 1)) (2 : Fin 4) * 1 ≤ (i 2).val ∧ (i 2).val < win0_11.index (ptOf (i 0) (i 1)) (2 : Fin 4) * 1 + 1
    omega
  | ⟨3, _⟩ =>
    show win0_11.index (ptOf (i 0) (i 1)) (3 : Fin 4) * 128 ≤ (i 3).val ∧ (i 3).val < win0_11.index (ptOf (i 0) (i 1)) (3 : Fin 4) * 128 + 128
    omega

/-- The region's result array after the run. -/
theorem final (c : Dev nD) : (dats m 0 c).arrAt 11 cfg0.N = regionOut m c :=
  (dats m 0 c).arrAt_eq_of_cover 11 (regionOut m c) (fun t _ => flushed_eq m c t) cover

/-! ## The host transpose after the region, and the run -/

/-- The program's result `[4, 1, 32, 128]`: the specification's `result` of the arguments as launched. -/
def resultOf (c : Dev nD) : S4x1x32x128.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- After the region the host transposes its result `[b, h, 1, d] → [b, 1, h, d]`: entry `(b, 0, h, d)` is head
    `(b, h)`'s output at `d`. -/
theorem tail_eq (c : Dev nD) :
    Pipeline.afterTail₀ cfgs (dats m) 0 (V0 m) [hostOps1] c main_v4 = resultOf m c := by
  unfold Pipeline.afterTail₀
  show StableHlo.after hostOps1 _ (Proc.devRef .tc main_v4) = _
  after_results
  have ew : Pipeline.withArrays (cfgs 0).spec c (V0 m c) (fun w => (dats m 0 c).arrAt w (cfgs 0).N) (Proc.devRef .tc main_v3)
      = regionOut m c := (Pipeline.withArrays_arr spec0 winFacts0.arr_inj c _ _ 11).trans (final m c)
  rw [ew]
  funext i
  obtain ⟨b, z, h, d, rfl⟩ : ∃ (b : Fin 4) (z : Fin 1) (h : Fin 32) (d : Fin 128), i = ix4 b z h d :=
    ⟨i 0, i 1, i 2, i 3, eq_ix4 i⟩
  obtain rfl : z = 0 := Subsingleton.elim _ _
  refine (transpose_apply [0, 2, 1, 3] (regionOut m c) transposes_S4x32x1x128_S4x1x32x128_0_2_1_3 _
    (ix4 b h (0 : Fin 1) d : S4x32x1x128.Idx) (fun x => match x with
      | ⟨0, _⟩ => rfl
      | ⟨1, _⟩ => rfl
      | ⟨2, _⟩ => rfl
      | ⟨3, _⟩ => rfl)).trans ?_
  rfl

/-- Every weakly fair execution of the kernel program terminates with its result array at the specification's
    `result` of the arguments, the arguments unchanged. -/
theorem run : θ_run defs (onTc (τ := τ) (main (F := Ideal))) ⟨m, fun _ => 0, ρ⟩ fun r => ∀ c : Dev nD,
      r.2.mem ((c : Thread nD τ).loc main_v4) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c =>
    ⟨((h c).2 main_v4 (Pipeline.mem_restRefs_of main_v4 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans ((((dats m 0 c).arrAt_in 3 rfl _).trans ((A_eq m c 3).trans (V_main_arg3 m c)))),
      ((h c).1 4).trans ((((dats m 0 c).arrAt_in 4 rfl _).trans ((A_eq m c 4).trans (V_main_arg4 m c)))),
      ((h c).1 5).trans ((((dats m 0 c).arrAt_in 5 rfl _).trans ((A_eq m c 5).trans (V_main_arg5 m c)))),
      ((h c).1 6).trans ((((dats m 0 c).arrAt_in 6 rfl _).trans ((A_eq m c 6).trans (V_main_arg6 m c)))),
      ((h c).1 7).trans ((((dats m 0 c).arrAt_in 7 rfl _).trans ((A_eq m c 7).trans (V_main_arg7 m c)))),
      ((h c).1 8).trans ((((dats m 0 c).arrAt_in 8 rfl _).trans ((A_eq m c 8).trans (V_main_arg8 m c)))),
      ((h c).1 9).trans ((((dats m 0 c).arrAt_in 9 rfl _).trans ((A_eq m c 9).trans (V_main_arg9 m c)))),
      ((h c).1 10).trans ((((dats m 0 c).arrAt_in 10 rfl _).trans ((A_eq m c 10).trans (V_main_arg10 m c))))⟩)
    (run_main m ρ)

end Cert.KernelIdeal.RunValue

end
-- ==== Proof.RefCaches.lean ====
/-
  The reference program's two dequantised caches and its two joined full-precision arrays, read one entry at a time.

  The reference dequantises a cache by viewing the integer codes in groups of 64 along the last axis, multiplying
  each group by its scale and adding its offset (both repeated 64 times along a new last axis), and flattening the
  groups again.  Read at one entry this is: the code as a number, times the scale of the group the entry lies in,
  plus that group's offset.  For the key cache (stored feature-major) the group is the position divided by 64; for
  the value cache (stored position-major) it is the feature divided by 64.

  The full-precision keys, and likewise the values, are 64 stored rows followed by the one new row, which is held
  batch-first and is moved head-first before the join.  Read at one entry: row j below 64 is the stored row j, and
  row 64 is the new row.
-/
import proofs.«180641_j77506979824107_1_alg».proof.Proof.AttnSpec
import proofs.«180641_j77506979824107_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx QuantAttn

namespace Cert.ReferenceIdeal.CachesAt

open Cert.ReferenceIdeal Cert.ReferenceIdeal.Gen Cert.ReferenceIdeal.Read

/-! ## Index arithmetic: splitting a flat position into (group, place in group) and back -/

/-- Splitting the last axis of the key cache into 62 groups of 64 and flattening again returns every index. -/
theorem key_code_idx (b : Fin 4) (h : Fin 32) (d : Fin 128) (t : Fin 3968) :
    idx_main_v4 (idx_main_v11 (ix4 b h d t)) = ix4 b h d t := by
  have hb := b.isLt; have hh := h.isLt; have hd := d.isLt; have ht := t.isLt
  have e0 : (ix4 b h d t 0).val = b.val := rfl
  have e1 : (ix4 b h d t 1).val = h.val := rfl
  have e2 : (ix4 b h d t 2).val = d.val := rfl
  have e3 : (ix4 b h d t 3).val = t.val := rfl
  funext a
  apply Fin.ext
  match a with
  | ⟨0, _⟩ => dsimp only; show _ = b.val; omega
  | ⟨1, _⟩ => dsimp only; show _ = h.val; omega
  | ⟨2, _⟩ => dsimp only; show _ = d.val; omega
  | ⟨3, _⟩ => dsimp only; show _ = t.val; omega

/-- The scale repeated along a group is read at the group of the position: position `t` lies in group `t / 64`. -/
theorem key_scale_idx (b : Fin 4) (h : Fin 32) (d : Fin 128) (t : Fin 3968) :
    idx_main_v5 (idx_main_v6 (idx_main_v11 (ix4 b h d t))) = ix4 b h d (grpT t) := by
  have hb := b.isLt; have hh := h.isLt; have hd := d.isLt; have ht := t.isLt
  have e0 : (ix4 b h d t 0).val = b.val := rfl
  have e1 : (ix4 b h d t 1).val = h.val := rfl
  have e2 : (ix4 b h d t 2).val = d.val := rfl
  have e3 : (ix4 b h d t 3).val = t.val := rfl
  funext a
  apply Fin.ext
  match a with
  | ⟨0, _⟩ => dsimp only; show _ = b.val; omega
  | ⟨1, _⟩ => dsimp only; show _ = h.val; omega
  | ⟨2, _⟩ => dsimp only; show _ = d.val; omega
  | ⟨3, _⟩ => dsimp only; show _ = t.val / 64; omega

/-- The offset repeated along a group is read at the group of the position, like the scale. -/
theorem key_off_idx (b : Fin 4) (h : Fin 32) (d : Fin 128) (t : Fin 3968) :
    idx_main_v8 (idx_main_v9 (idx_main_v11 (ix4 b h d t))) = ix4 b h d (grpT t) := by
  have hb := b.isLt; have hh := h.isLt; have hd := d.isLt; have ht := t.isLt
  have e0 : (ix4 b h d t 0).val = b.val := rfl
  have e1 : (ix4 b h d t 1).val = h.val := rfl
  have e2 : (ix4 b h d t 2).val = d.val := rfl
  have e3 : (ix4 b h d t 3).val = t.val := rfl
  funext a
  apply Fin.ext
  match a with
  | ⟨0, _⟩ => dsimp only; show _ = b.val; omega
  | ⟨1, _⟩ => dsimp only; show _ = h.val; omega
  | ⟨2, _⟩ => dsimp only; show _ = d.val; omega
  | ⟨3, _⟩ => dsimp only; show _ = t.val / 64; omega

/-- Splitting the last axis of the value cache into 2 groups of 64 and flattening again returns every index. -/
theorem val_code_idx (b : Fin 4) (h : Fin 32) (t : Fin 3968) (d : Fin 128) :
    idx_main_v31 (idx_main_v38 (ix4 b h t d)) = ix4 b h t d := by
  have hb := b.isLt; have hh := h.isLt; have hd := d.isLt; have ht := t.isLt
  have e0 : (ix4 b h t d 0).val = b.val := rfl
  have e1 : (ix4 b h t d 1).val = h.val := rfl
  have e2 : (ix4 b h t d 2).val = t.val := rfl
  have e3 : (ix4 b h t d 3).val = d.val := rfl
  funext a
  apply Fin.ext
  match a with
  | ⟨0, _⟩ => dsimp only; show _ = b.val; omega
  | ⟨1, _⟩ => dsimp only; show _ = h.val; omega
  | ⟨2, _⟩ => dsimp only; show _ = t.val; omega
  | ⟨3, _⟩ => dsimp only; show _ = d.val; omega

/-- The scale repeated along a group is read at the group of the feature: feature `d` lies in group `d / 64`. -/
theorem val_scale_idx (b : Fin 4) (h : Fin 32) (t : Fin 3968) (d : Fin 128) :
    idx_main_v32 (idx_main_v33 (idx_main_v38 (ix4 b h t d))) = ix4 b h t (grpD d) := by
  have hb := b.isLt; have hh := h.isLt; have hd := d.isLt; have ht := t.isLt
  have e0 : (ix4 b h t d 0).val = b.val := rfl
  have e1 : (ix4 b h t d 1).val = h.val := rfl
  have e2 : (ix4 b h t d 2).val = t.val := rfl
  have e3 : (ix4 b h t d 3).val = d.val := rfl
  funext a
  apply Fin.ext
  match a with
  | ⟨0, _⟩ => dsimp only; show _ = b.val; omega
  | ⟨1, _⟩ => dsimp only; show _ = h.val; omega
  | ⟨2, _⟩ => dsimp only; show _ = t.val; omega
  | ⟨3, _⟩ => dsimp only; show _ = d.val / 64; omega

/-- The offset repeated along a group is read at the group of the feature, like the scale. -/
theorem val_off_idx (b : Fin 4) (h : Fin 32) (t : Fin 3968) (d : Fin 128) :
    idx_main_v35 (idx_main_v36 (idx_main_v38 (ix4 b h t d))) = ix4 b h t (grpD d) := by
  have hb := b.isLt; have hh := h.isLt; have hd := d.isLt; have ht := t.isLt
  have e0 : (ix4 b h t d 0).val = b.val := rfl
  have e1 : (ix4 b h t d 1).val = h.val := rfl
  have e2 : (ix4 b h t d 2).val = t.val := rfl
  have e3 : (ix4 b h t d 3).val = d.val := rfl
  funext a
  apply Fin.ext
  match a with
  | ⟨0, _⟩ => dsimp only; show _ = b.val; omega
  | ⟨1, _⟩ => dsimp only; show _ = h.val; omega
  | ⟨2, _⟩ => dsimp only; show _ = t.val; omega
  | ⟨3, _⟩ => dsimp only; show _ = d.val / 64; omega

/-! ## The two dequantised caches -/

/-- The reference's dequantised key cache at feature `d` of position `t` (head `(b, h)`): the code there as a
    number, times the scale of the group of 64 positions that `t` lies in, plus that group's offset. -/
theorem keyCache_apply (x5 x6 : (⟨S4x32x128x62, .f32⟩ : BufTy).Contents (Elt Ideal)) (x9 : (⟨S4x32x128x3968, .i32⟩ : BufTy).Contents (Elt Ideal)) (b : Fin 4) (h : Fin 32) (d : Fin 128) (t : Fin 3968) :
    val_main_v11 (F := Ideal) x5 x6 x9 (ix4 b h d t)
      = deq (x9 (ix4 b h d t)) (x5 (ix4 b h d (grpT t))) (x6 (ix4 b h d (grpT t))) := by
  rw [val_main_v11_apply, val_main_v10_apply, val_main_v7_apply, val_main_v4_apply, val_main_v3_apply,
    val_main_v6_apply, val_main_v5_apply, val_main_v9_apply, val_main_v8_apply,
    key_code_idx, key_scale_idx, key_off_idx]
  rfl

/-- The reference's dequantised value cache at position `t`, feature `d` (head `(b, h)`): the code there as a
    number, times the scale of the group of 64 features that `d` lies in, plus that group's offset. -/
theorem valueCache_apply (x7 x8 : (⟨S4x32x3968x2, .f32⟩ : BufTy).Contents (Elt Ideal)) (x10 : (⟨S4x32x3968x128, .i32⟩ : BufTy).Contents (Elt Ideal)) (b : Fin 4) (h : Fin 32) (t : Fin 3968) (d : Fin 128) :
    val_main_v38 (F := Ideal) x7 x8 x10 (ix4 b h t d)
      = deq (x10 (ix4 b h t d)) (x7 (ix4 b h t (grpD d))) (x8 (ix4 b h t (grpD d))) := by
  rw [val_main_v38_apply, val_main_v37_apply, val_main_v34_apply, val_main_v31_apply, val_main_v30_apply,
    val_main_v33_apply, val_main_v32_apply, val_main_v36_apply, val_main_v35_apply,
    val_code_idx, val_scale_idx, val_off_idx]
  rfl

/-! ## The full-precision rows with the new row joined on -/

/-- Moving the new row from batch-first to head-first storage: entry `(b, h, 0, d)` comes from `(b, 0, h, d)`. -/
theorem newKey_idx (b : Fin 4) (h : Fin 32) (d : Fin 128) :
    idx_main_v1 (ix4 b h (0 : Fin 1) d) = ix4 b (0 : Fin 1) h d := by
  funext a
  apply Fin.ext
  match a with
  | ⟨0, _⟩ => rfl
  | ⟨1, _⟩ => rfl
  | ⟨2, _⟩ => rfl
  | ⟨3, _⟩ => rfl

/-- The same for the new value row. -/
theorem newVal_idx (b : Fin 4) (h : Fin 32) (d : Fin 128) :
    idx_main_v2 (ix4 b h (0 : Fin 1) d) = ix4 b (0 : Fin 1) h d := by
  funext a
  apply Fin.ext
  match a with
  | ⟨0, _⟩ => rfl
  | ⟨1, _⟩ => rfl
  | ⟨2, _⟩ => rfl
  | ⟨3, _⟩ => rfl

/-- 64 rows and one more row joined along the row axis, read at row `j`: the stored row below 64, else the one
    further row. -/
theorem join_rows_apply (x : (⟨S4x32x64x128, .f32⟩ : BufTy).Contents (Elt Ideal)) (y : (⟨S4x32x1x128, .f32⟩ : BufTy).Contents (Elt Ideal))
    (b : Fin 4) (h : Fin 32) (j : Fin 65) (d : Fin 128) :
    concatenate S4x32x65x128 2 [⟨S4x32x64x128, x⟩, ⟨S4x32x1x128, y⟩] concatenates_S4x32x64x128_S4x32x1x128_S4x32x65x128_d2 (ix4 b h j d)
      = withLast (fun j d => x (ix4 b h j d)) (fun d => y (ix4 b h (0 : Fin 1) d)) j d := by
  unfold withLast
  have hj65 := j.isLt
  by_cases hj : j.val < 64
  · rw [dif_pos hj]
    exact concatenate_apply_piece (2 : Fin S4x32x65x128.rank) [⟨S4x32x64x128, x⟩, ⟨S4x32x1x128, y⟩]
      concatenates_S4x32x64x128_S4x32x1x128_S4x32x65x128_d2 (ix4 b h j d) 0 (by simp) S4x32x64x128 x rfl rfl 0 rfl
      (ix4 b h ⟨j.val, hj⟩ d) (fun c hc => by
        match c with
        | ⟨0, _⟩ => rfl
        | ⟨1, _⟩ => rfl
        | ⟨2, _⟩ => exact absurd (Fin.ext rfl) hc
        | ⟨3, _⟩ => rfl) (Nat.zero_add _)
  · rw [dif_neg hj]
    exact concatenate_apply_piece (2 : Fin S4x32x65x128.rank) [⟨S4x32x64x128, x⟩, ⟨S4x32x1x128, y⟩]
      concatenates_S4x32x64x128_S4x32x1x128_S4x32x65x128_d2 (ix4 b h j d) 1 (by simp) S4x32x1x128 y rfl rfl 64 (by simp)
      (ix4 b h (0 : Fin 1) d) (fun c hc => by
        match c with
        | ⟨0, _⟩ => rfl
        | ⟨1, _⟩ => rfl
        | ⟨2, _⟩ => exact absurd (Fin.ext rfl) hc
        | ⟨3, _⟩ => rfl) (by show 64 + 0 = j.val; omega)

/-- The reference's 65 full-precision key rows of head `(b, h)`: the 64 stored rows, then the new key row. -/
theorem keys_apply (x1 : (⟨S4x1x32x128, .f32⟩ : BufTy).Contents (Elt Ideal)) (x3 : (⟨S4x32x64x128, .f32⟩ : BufTy).Contents (Elt Ideal)) (b : Fin 4) (h : Fin 32) (j : Fin 65) (d : Fin 128) :
    val_main_v13 (F := Ideal) x1 x3 (ix4 b h j d)
      = withLast (fun j d => x3 (ix4 b h j d)) (fun d => x1 (ix4 b (0 : Fin 1) h d)) j d := by
  unfold val_main_v13
  refine (join_rows_apply x3 (val_main_v1 (F := Ideal) x1) b h j d).trans ?_
  refine congrArg (fun y : Fin 128 → EReal => withLast (fun j d => x3 (ix4 b h j d)) y j d) (funext fun d' => ?_)
  rw [val_main_v1_apply, newKey_idx]

/-- The reference's 65 full-precision value rows of head `(b, h)`: the 64 stored rows, then the new value row. -/
theorem vals_apply (x2 : (⟨S4x1x32x128, .f32⟩ : BufTy).Contents (Elt Ideal)) (x4 : (⟨S4x32x64x128, .f32⟩ : BufTy).Contents (Elt Ideal)) (b : Fin 4) (h : Fin 32) (j : Fin 65) (d : Fin 128) :
    val_main_v29 (F := Ideal) x2 x4 (ix4 b h j d)
      = withLast (fun j d => x4 (ix4 b h j d)) (fun d => x2 (ix4 b (0 : Fin 1) h d)) j d := by
  unfold val_main_v29
  refine (join_rows_apply x4 (val_main_v2 (F := Ideal) x2) b h j d).trans ?_
  refine congrArg (fun y : Fin 128 → EReal => withLast (fun j d => x4 (ix4 b h j d)) y j d) (funext fun d' => ?_)
  rw [val_main_v2_apply, newVal_idx]

end Cert.ReferenceIdeal.CachesAt

end
-- ==== Proof.RefLogits.lean ====
/-
  The reference's scaled logits, one head at a time.

  The reference lays the 3968 products of the query with the dequantised cache keys and the 65 products with the
  full-precision keys end to end along the last axis and multiplies every entry by one constant word.  Read at the
  index (b, h, 0, n) this is the specification's `scores`: the query row of head (b, h) against column t of the
  dequantised keys for n = t < 3968, against row n - 3968 of the 65 further keys otherwise, times the constant.
  The two contractions are sums over the 128 features; the query is read through the transposition that swaps
  the head axis with the unit axis.
-/
import proofs.«180641_j77506979824107_1_alg».proof.Proof.AttnSpec
import proofs.«180641_j77506979824107_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section
open scoped BigOperators
open Idealize.ShloMosaic Idealize.ShloMosaic.ValueIdx QuantAttn
namespace Cert.ReferenceIdeal.LogitsAt
open Cert.ReferenceIdeal Cert.ReferenceIdeal.Gen Cert.ReferenceIdeal.Read

/-- The transposed query at (b, h, 0, k) is the query argument at (b, 0, h, k). -/
theorem query_at (x0 : (⟨S4x1x32x128, .f32⟩ : BufTy).Contents (Elt Ideal)) (b : Fin 4) (h : Fin 32) (k : Fin 128) :
    val_main_v0 (F := Ideal) x0 (ix4 b h (0 : Fin 1) k) = x0 (ix4 b (0 : Fin 1) h k) := by
  rw [val_main_v0_apply]
  refine congrArg x0 (funext fun a => Fin.ext ?_)
  match a with
  | ⟨0, _⟩ => rfl
  | ⟨1, _⟩ => rfl
  | ⟨2, _⟩ => rfl
  | ⟨3, _⟩ => rfl

/-- The first contraction at (b, h, 0, t): the query row of head (b, h) against column t of the dequantised keys. -/
theorem cache_dot_at (x0 : (⟨S4x1x32x128, .f32⟩ : BufTy).Contents (Elt Ideal)) (x5 x6 : (⟨S4x32x128x62, .f32⟩ : BufTy).Contents (Elt Ideal)) (x9 : (⟨S4x32x128x3968, .i32⟩ : BufTy).Contents (Elt Ideal)) (b : Fin 4) (h : Fin 32) (t : Fin 3968) :
    val_main_v12 (F := Ideal) x0 x5 x6 x9 (ix4 b h (0 : Fin 1) t)
      = ∑ d : Fin 128, x0 (ix4 b (0 : Fin 1) h d) * val_main_v11 (F := Ideal) x5 x6 x9 (ix4 b h d t) := by
  rw [val_main_v12_apply]
  refine Finset.sum_congr rfl fun k _ => ?_
  have el : lidx_main_v12 (ix4 b h (0 : Fin 1) t) k = ix4 b h (0 : Fin 1) k := funext fun a => Fin.ext (by
    match a with
    | ⟨0, _⟩ => rfl
    | ⟨1, _⟩ => rfl
    | ⟨2, _⟩ => rfl
    | ⟨3, _⟩ => rfl)
  have er : ridx_main_v12 (ix4 b h (0 : Fin 1) t) k = ix4 b h k t := funext fun a => Fin.ext (by
    match a with
    | ⟨0, _⟩ => rfl
    | ⟨1, _⟩ => rfl
    | ⟨2, _⟩ => rfl
    | ⟨3, _⟩ => rfl)
  rw [el, er, query_at]

/-- The second contraction at (b, h, 0, j): the query row of head (b, h) against row j of the 65 further keys. -/
theorem full_dot_at (x0 x1 : (⟨S4x1x32x128, .f32⟩ : BufTy).Contents (Elt Ideal)) (x3 : (⟨S4x32x64x128, .f32⟩ : BufTy).Contents (Elt Ideal)) (b : Fin 4) (h : Fin 32) (j : Fin 65) :
    val_main_v14 (F := Ideal) x0 x1 x3 (ix4 b h (0 : Fin 1) j)
      = ∑ d : Fin 128, x0 (ix4 b (0 : Fin 1) h d) * val_main_v13 (F := Ideal) x1 x3 (ix4 b h j d) := by
  rw [val_main_v14_apply]
  refine Finset.sum_congr rfl fun k _ => ?_
  have el : lidx_main_v14 (ix4 b h (0 : Fin 1) j) k = ix4 b h (0 : Fin 1) k := funext fun a => Fin.ext (by
    match a with
    | ⟨0, _⟩ => rfl
    | ⟨1, _⟩ => rfl
    | ⟨2, _⟩ => rfl
    | ⟨3, _⟩ => rfl)
  have er : ridx_main_v14 (ix4 b h (0 : Fin 1) j) k = ix4 b h j k := funext fun a => Fin.ext (by
    match a with
    | ⟨0, _⟩ => rfl
    | ⟨1, _⟩ => rfl
    | ⟨2, _⟩ => rfl
    | ⟨3, _⟩ => rfl)
  rw [el, er, query_at]

/-- Two arrays joined along the last axis, the first of extent 3968 and the second of extent 65, read at
    (b, h, 0, n): the two rows of head (b, h) laid end to end. -/
theorem join_last_at (x : (⟨S4x32x1x3968, .f32⟩ : BufTy).Contents (Elt Ideal)) (y : (⟨S4x32x1x65, .f32⟩ : BufTy).Contents (Elt Ideal))
    (hc : Shape.Concatenates [S4x32x1x3968, S4x32x1x65] S4x32x1x4033 3) (b : Fin 4) (h : Fin 32) (n : Fin 4033) :
    concatenate S4x32x1x4033 3 [⟨S4x32x1x3968, x⟩, ⟨S4x32x1x65, y⟩] hc (ix4 b h (0 : Fin 1) n)
      = cat (fun t => x (ix4 b h (0 : Fin 1) t)) (fun j => y (ix4 b h (0 : Fin 1) j)) n := by
  unfold cat
  have hn4 := n.isLt
  by_cases hn : n.val < 3968
  · rw [dif_pos hn]
    exact concatenate_apply_piece (3 : Fin S4x32x1x4033.rank) [⟨S4x32x1x3968, x⟩, ⟨S4x32x1x65, y⟩] hc (ix4 b h (0 : Fin 1) n) 0 (by simp)
      S4x32x1x3968 x rfl rfl 0 rfl (ix4 b h (0 : Fin 1) (⟨n.val, hn⟩ : Fin 3968)) (fun c hcne => by
        match c with
        | ⟨0, _⟩ => rfl
        | ⟨1, _⟩ => rfl
        | ⟨2, _⟩ => rfl
        | ⟨3, _⟩ => exact absurd (Fin.ext rfl) hcne) (Nat.zero_add _)
  · have h2 : n.val - 3968 < 65 := by omega
    rw [dif_neg hn]
    exact concatenate_apply_piece (3 : Fin S4x32x1x4033.rank) [⟨S4x32x1x3968, x⟩, ⟨S4x32x1x65, y⟩] hc (ix4 b h (0 : Fin 1) n) 1 (by simp)
      S4x32x1x65 y rfl rfl 3968 (by simp) (ix4 b h (0 : Fin 1) (⟨n.val - 3968, h2⟩ : Fin 65)) (fun c hcne => by
        match c with
        | ⟨0, _⟩ => rfl
        | ⟨1, _⟩ => rfl
        | ⟨2, _⟩ => rfl
        | ⟨3, _⟩ => exact absurd (Fin.ext rfl) hcne) (by show 3968 + (n.val - 3968) = n.val; omega)

/-- The reference's scaled logits at (b, h, 0, n) are the specification's scores of head (b, h): the query row
    against the dequantised cache keys (stored transposed) and against the 65 further keys, laid end to end, times
    the constant word. -/
theorem logits_apply (x0 : (⟨S4x1x32x128, .f32⟩ : BufTy).Contents (Elt Ideal)) (x1 : (⟨S4x1x32x128, .f32⟩ : BufTy).Contents (Elt Ideal)) (x3 : (⟨S4x32x64x128, .f32⟩ : BufTy).Contents (Elt Ideal)) (x5 x6 : (⟨S4x32x128x62, .f32⟩ : BufTy).Contents (Elt Ideal)) (x9 : (⟨S4x32x128x3968, .i32⟩ : BufTy).Contents (Elt Ideal)) (b : Fin 4) (h : Fin 32) (n : Fin 4033) :
    val_main_v17 (F := Ideal) x0 x1 x3 x5 x6 x9 (ix4 b h (0 : Fin 1) n)
      = scores (fun d => x0 (ix4 b (0 : Fin 1) h d)) (fun d t => val_main_v11 (F := Ideal) x5 x6 x9 (ix4 b h d t))
          (fun j d => val_main_v13 (F := Ideal) x1 x3 (ix4 b h j d)) n := by
  rw [val_main_v17_apply, val_main_v16_apply, val_main_cst_apply]
  unfold scores val_main_v15
  rw [join_last_at]
  have e1 : (fun t : Fin 3968 => val_main_v12 (F := Ideal) x0 x5 x6 x9 (ix4 b h (0 : Fin 1) t))
      = fun t => ∑ d : Fin 128, x0 (ix4 b (0 : Fin 1) h d) * val_main_v11 (F := Ideal) x5 x6 x9 (ix4 b h d t) :=
    funext fun t => cache_dot_at x0 x5 x6 x9 b h t
  have e2 : (fun j : Fin 65 => val_main_v14 (F := Ideal) x0 x1 x3 (ix4 b h (0 : Fin 1) j))
      = fun j => ∑ d : Fin 128, x0 (ix4 b (0 : Fin 1) h d) * val_main_v13 (F := Ideal) x1 x3 (ix4 b h j d) :=
    funext fun j => full_dot_at x0 x1 x3 b h j
  rw [e1, e2]
  rfl

end Cert.ReferenceIdeal.LogitsAt
end
-- ==== Proof.RefAttend.lean ====
/-
  The reference's softmax and its weighted sum of the values, read one (batch, head) row at a time.

  For a fixed batch `b` and head `h` the reference holds a row of 4033 scaled logits.  It takes the row's largest
  entry (a fold of `max` from `-∞`, and once more against `-∞`), subtracts it from every entry, exponentiates,
  sums the exponentials from zero, and divides each exponential by that sum: this is `softmax` of the row.  The
  output row is then the first 3968 weights against the dequantised values plus the last 65 weights against the
  full-precision values: this is `attend`.  Both facts are stated at explicit coordinates `(b, h, 0, ·)`.
-/
import proofs.«180641_j77506979824107_1_alg».proof.Proof.AttnSpec
import proofs.«180641_j77506979824107_1_alg».proof.Proof.Gen.ReferenceIdeal.Read
import Idealize.ShloMosaic.Lib.ValueIdx
import Idealize.ShloMosaic.PureOps.Ideal.Laws
import Idealize.ShloMosaic.PureOps.Reduce

noncomputable section

open scoped BigOperators

open Idealize.ShloMosaic Idealize.ShloMosaic.ValueIdx QuantAttn

namespace Cert.ReferenceIdeal.AttendAt

open Cert.ReferenceIdeal Cert.ReferenceIdeal.Gen Cert.ReferenceIdeal.Read

/-! ## Index maps at explicit coordinates -/

/-- Both broadcasts of a per-row scalar read the row's entry `(b, h, 0)`. -/
theorem idx_21_22 (b : Fin 4) (h : Fin 32) (n : Fin 4033) :
    idx_main_v21 (idx_main_v22 (ix4 b h (0 : Fin 1) n)) = ix3 b h (0 : Fin 1) := by
  funext a
  match a with
  | ⟨0, _⟩ => rfl
  | ⟨1, _⟩ => rfl
  | ⟨2, _⟩ => rfl

/-- The same for the two broadcasts of the row's sum. -/
theorem idx_26_27 (b : Fin 4) (h : Fin 32) (n : Fin 4033) :
    idx_main_v26 (idx_main_v27 (ix4 b h (0 : Fin 1) n)) = ix3 b h (0 : Fin 1) := by
  funext a
  match a with
  | ⟨0, _⟩ => rfl
  | ⟨1, _⟩ => rfl
  | ⟨2, _⟩ => rfl

/-- The sum over the last axis at `(b, h, 0)` runs over the entries `(b, h, 0, k)`. -/
theorem idx_25 (b : Fin 4) (h : Fin 32) (k : Fin 4033) :
    idx_main_v25 (ix3 b h (0 : Fin 1)) k = ix4 b h (0 : Fin 1) k := by
  funext a
  match a with
  | ⟨0, _⟩ => rfl
  | ⟨1, _⟩ => rfl
  | ⟨2, _⟩ => rfl
  | ⟨3, _⟩ => rfl

/-- The reduced index `(b, h, 0)` with the last coordinate `k` put back is `(b, h, 0, k)`. -/
theorem lift_last (hr : S4x32x1x4033.Reduces [3] S4x32x1) (b : Fin 4) (h : Fin 32) (k : Fin 4033) :
    hr.lift (ix3 b h (0 : Fin 1)) k = ix4 b h (0 : Fin 1) k := by
  funext a
  apply Fin.ext
  match a with
  | ⟨0, _⟩ => rfl
  | ⟨1, _⟩ => rfl
  | ⟨2, _⟩ => rfl
  | ⟨3, _⟩ => rfl

/-! ## The softmax of one row -/

/-- The row's largest entry as the reference takes it — the fold of `max` from `-∞` over the 4033 entries, then once
    more against `-∞` — is `rowTop` of the row. -/
theorem top_apply (x0 : (⟨S4x1x32x128, .f32⟩ : BufTy).Contents (Elt Ideal)) (x1 : (⟨S4x1x32x128, .f32⟩ : BufTy).Contents (Elt Ideal)) (x3 : (⟨S4x32x64x128, .f32⟩ : BufTy).Contents (Elt Ideal)) (x5 x6 : (⟨S4x32x128x62, .f32⟩ : BufTy).Contents (Elt Ideal)) (x9 : (⟨S4x32x128x3968, .i32⟩ : BufTy).Contents (Elt Ideal)) (b : Fin 4) (h : Fin 32) :
    val_main_v20 (F := Ideal) x0 x1 x3 x5 x6 x9 (ix3 b h (0 : Fin 1))
      = rowTop (fun k => val_main_v17 (F := Ideal) x0 x1 x3 x5 x6 x9 (ix4 b h (0 : Fin 1) k)) := by
  have hr : S4x32x1x4033.Reduces [3] S4x32x1 := by decide
  rw [val_main_v20_apply, val_main_v19_apply, val_main_cst_1_apply]
  unfold val_main_v18
  have e := Host.reduce_eq_fold_single (α := Ideal .f32) (FloatOps.maximumf (F := Ideal) (φ := .f32))
    (val_main_v17 (F := Ideal) x0 x1 x3 x5 x6 x9 : S4x32x1x4033.Idx → Ideal .f32)
    (val_main_cst_0 (F := Ideal) : S_.Idx → Ideal .f32)
    reducesTo_S4x32x1x4033_S4x32x1_d3 hr h_S_ (ix3 b h (0 : Fin 1))
  refine (congrArg (FloatOps.maximumf (F := Ideal) (φ := .f32) (FloatOps.ofBits (F := Ideal) .f32 0xFF800000#32)) e).trans ?_
  have hf : ((val_main_v17 (F := Ideal) x0 x1 x3 x5 x6 x9) ∘ hr.lift (ix3 b h (0 : Fin 1)))
      = (fun k : Fin 4033 => val_main_v17 (F := Ideal) x0 x1 x3 x5 x6 x9 (ix4 b h (0 : Fin 1) k)) :=
    funext fun k => congrArg (val_main_v17 (F := Ideal) x0 x1 x3 x5 x6 x9) (lift_last hr b h k)
  exact congrArg (fun f : Fin 4033 → EReal => max (Ideal.ofBits .f32 0xFF800000#32)
    (Finset.fold max (Ideal.ofBits .f32 0xFF800000#32) f (Finset.univ : Finset (Fin 4033)))) hf

/-- Each entry's shifted exponential. -/
theorem ex_apply (x0 : (⟨S4x1x32x128, .f32⟩ : BufTy).Contents (Elt Ideal)) (x1 : (⟨S4x1x32x128, .f32⟩ : BufTy).Contents (Elt Ideal)) (x3 : (⟨S4x32x64x128, .f32⟩ : BufTy).Contents (Elt Ideal)) (x5 x6 : (⟨S4x32x128x62, .f32⟩ : BufTy).Contents (Elt Ideal)) (x9 : (⟨S4x32x128x3968, .i32⟩ : BufTy).Contents (Elt Ideal)) (b : Fin 4) (h : Fin 32) (n : Fin 4033) :
    val_main_v24 (F := Ideal) x0 x1 x3 x5 x6 x9 (ix4 b h (0 : Fin 1) n)
      = rowEx (fun k => val_main_v17 (F := Ideal) x0 x1 x3 x5 x6 x9 (ix4 b h (0 : Fin 1) k)) n := by
  rw [val_main_v24_apply, val_main_v23_apply, val_main_v22_apply, val_main_v21_apply, idx_21_22, top_apply]
  rfl

/-- The row's sum of shifted exponentials, taken from zero. -/
theorem sum_apply (x0 : (⟨S4x1x32x128, .f32⟩ : BufTy).Contents (Elt Ideal)) (x1 : (⟨S4x1x32x128, .f32⟩ : BufTy).Contents (Elt Ideal)) (x3 : (⟨S4x32x64x128, .f32⟩ : BufTy).Contents (Elt Ideal)) (x5 x6 : (⟨S4x32x128x62, .f32⟩ : BufTy).Contents (Elt Ideal)) (x9 : (⟨S4x32x128x3968, .i32⟩ : BufTy).Contents (Elt Ideal)) (b : Fin 4) (h : Fin 32) :
    val_main_v25 (F := Ideal) x0 x1 x3 x5 x6 x9 (ix3 b h (0 : Fin 1))
      = ∑ k : Fin 4033, rowEx (fun k => val_main_v17 (F := Ideal) x0 x1 x3 x5 x6 x9 (ix4 b h (0 : Fin 1) k)) k := by
  rw [val_main_v25_apply, val_main_cst_2_apply]
  have hz : FloatOps.ofBits (F := Ideal) .f32 0x00000000#32 = (0 : EReal) := Ideal.ofBits_zero_f32
  rw [hz, zero_add]
  refine Finset.sum_congr rfl fun k _ => ?_
  rw [idx_25]
  exact ex_apply x0 x1 x3 x5 x6 x9 b h k

/-- Entry `n` of row `(b, h)` of the reference's weights is the softmax of that row of scaled logits. -/
theorem softmax_apply (x0 : (⟨S4x1x32x128, .f32⟩ : BufTy).Contents (Elt Ideal)) (x1 : (⟨S4x1x32x128, .f32⟩ : BufTy).Contents (Elt Ideal)) (x3 : (⟨S4x32x64x128, .f32⟩ : BufTy).Contents (Elt Ideal)) (x5 x6 : (⟨S4x32x128x62, .f32⟩ : BufTy).Contents (Elt Ideal)) (x9 : (⟨S4x32x128x3968, .i32⟩ : BufTy).Contents (Elt Ideal)) (b : Fin 4) (h : Fin 32) (n : Fin 4033) :
    val_main_v28 (F := Ideal) x0 x1 x3 x5 x6 x9 (ix4 b h (0 : Fin 1) n)
      = softmax (fun k => val_main_v17 (F := Ideal) x0 x1 x3 x5 x6 x9 (ix4 b h (0 : Fin 1) k)) n := by
  rw [val_main_v28_apply, val_main_v27_apply, val_main_v26_apply, idx_26_27, sum_apply, ex_apply]
  rfl

/-! ## The weights against the values -/

/-- The first slice of the weights, read where the first product reads it: weight `t` of row `(b, h)`. -/
theorem idx_39_40 (b : Fin 4) (h : Fin 32) (d : Fin 128) (t : Fin 3968) :
    idx_main_v39 (lidx_main_v40 (ix4 b h (0 : Fin 1) d) t)
      = ix4 b h (0 : Fin 1) (⟨t.val, by have := t.isLt; omega⟩ : Fin 4033) := by
  funext a
  match a with
  | ⟨0, _⟩ => rfl
  | ⟨1, _⟩ => rfl
  | ⟨2, _⟩ => rfl
  | ⟨3, _⟩ => rfl

/-- The first product's right operand at `(b, h, t, d)`. -/
theorem ridx_40 (b : Fin 4) (h : Fin 32) (d : Fin 128) (t : Fin 3968) :
    ridx_main_v40 (ix4 b h (0 : Fin 1) d) t = ix4 b h t d := by
  funext a
  match a with
  | ⟨0, _⟩ => rfl
  | ⟨1, _⟩ => rfl
  | ⟨2, _⟩ => rfl
  | ⟨3, _⟩ => rfl

/-- The second slice of the weights, read where the second product reads it: weight `3968 + j` of row `(b, h)`. -/
theorem idx_41_42 (b : Fin 4) (h : Fin 32) (d : Fin 128) (j : Fin 65) :
    idx_main_v41 (lidx_main_v42 (ix4 b h (0 : Fin 1) d) j)
      = ix4 b h (0 : Fin 1) (⟨3968 + j.val, by have := j.isLt; omega⟩ : Fin 4033) := by
  funext a
  match a with
  | ⟨0, _⟩ => rfl
  | ⟨1, _⟩ => rfl
  | ⟨2, _⟩ => rfl
  | ⟨3, _⟩ => rfl

/-- The second product's right operand at `(b, h, j, d)`. -/
theorem ridx_42 (b : Fin 4) (h : Fin 32) (d : Fin 128) (j : Fin 65) :
    ridx_main_v42 (ix4 b h (0 : Fin 1) d) j = ix4 b h j d := by
  funext a
  match a with
  | ⟨0, _⟩ => rfl
  | ⟨1, _⟩ => rfl
  | ⟨2, _⟩ => rfl
  | ⟨3, _⟩ => rfl

/-- Feature `d` of row `(b, h)` of the reference's output: the first 3968 weights against the dequantised values plus
    the last 65 weights against the full-precision values. -/
theorem out_apply (x0 : (⟨S4x1x32x128, .f32⟩ : BufTy).Contents (Elt Ideal)) (x1 : (⟨S4x1x32x128, .f32⟩ : BufTy).Contents (Elt Ideal)) (x2 : (⟨S4x1x32x128, .f32⟩ : BufTy).Contents (Elt Ideal)) (x3 : (⟨S4x32x64x128, .f32⟩ : BufTy).Contents (Elt Ideal)) (x4 : (⟨S4x32x64x128, .f32⟩ : BufTy).Contents (Elt Ideal)) (x5 x6 : (⟨S4x32x128x62, .f32⟩ : BufTy).Contents (Elt Ideal)) (x7 x8 : (⟨S4x32x3968x2, .f32⟩ : BufTy).Contents (Elt Ideal)) (x9 : (⟨S4x32x128x3968, .i32⟩ : BufTy).Contents (Elt Ideal)) (x10 : (⟨S4x32x3968x128, .i32⟩ : BufTy).Contents (Elt Ideal)) (b : Fin 4) (h : Fin 32) (d : Fin 128) :
    val_main_v43 (F := Ideal) x0 x1 x2 x3 x4 x5 x6 x7 x8 x9 x10 (ix4 b h (0 : Fin 1) d)
      = attend (fun n => val_main_v28 (F := Ideal) x0 x1 x3 x5 x6 x9 (ix4 b h (0 : Fin 1) n))
          (fun t d => val_main_v38 (F := Ideal) x7 x8 x10 (ix4 b h t d))
          (fun j d => val_main_v29 (F := Ideal) x2 x4 (ix4 b h j d)) d := by
  rw [val_main_v43_apply, val_main_v40_apply, val_main_v42_apply]
  unfold attend
  refine congrArg₂ (· + ·) (Finset.sum_congr rfl fun t _ => ?_) (Finset.sum_congr rfl fun j _ => ?_)
  · rw [val_main_v39_apply, idx_39_40, ridx_40]
  · rw [val_main_v41_apply, idx_41_42, ridx_42]

end Cert.ReferenceIdeal.AttendAt

end
-- ==== Proof.RefValue.lean ====
/-
  The reference's result is the specification's.

  Stage by stage the reference computes, for every (batch, head) pair at once, what the specification computes for
  one head: the dequantised caches, the 65 further keys and values, the scaled logits, their softmax and the weighted
  sums.  Read at `(b, h, 0, d)` its last sum is head `(b, h)`'s output at `d`; the closing transpose puts it at
  `(b, 0, h, d)`.
-/
import proofs.«180641_j77506979824107_1_alg».proof.Proof.AttnSpec
import proofs.«180641_j77506979824107_1_alg».proof.Proof.Gen.ReferenceIdeal.Read
import proofs.«180641_j77506979824107_1_alg».proof.Proof.RefCaches
import proofs.«180641_j77506979824107_1_alg».proof.Proof.RefLogits
import proofs.«180641_j77506979824107_1_alg».proof.Proof.RefAttend
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx QuantAttn

/-- The reference's last sum at `(b, h, 0, d)` is head `(b, h)`'s output at `d`. -/
theorem head_apply (x0 x1 x2 : (⟨S4x1x32x128, .f32⟩ : BufTy).Contents (Elt Ideal)) (x3 x4 : (⟨S4x32x64x128, .f32⟩ : BufTy).Contents (Elt Ideal))
    (x5 x6 : (⟨S4x32x128x62, .f32⟩ : BufTy).Contents (Elt Ideal)) (x7 x8 : (⟨S4x32x3968x2, .f32⟩ : BufTy).Contents (Elt Ideal))
    (x9 : (⟨S4x32x128x3968, .i32⟩ : BufTy).Contents (Elt Ideal)) (x10 : (⟨S4x32x3968x128, .i32⟩ : BufTy).Contents (Elt Ideal)) (b : Fin 4) (h : Fin 32) (d : Fin 128) :
    val_main_v43 (F := Ideal) x0 x1 x2 x3 x4 x5 x6 x7 x8 x9 x10 (ix4 b h (0 : Fin 1) d) = (headOf x0 x1 x2 x3 x4 x5 x6 x7 x8 x9 x10 b h).out d := by
  rw [AttendAt.out_apply]
  have ek : (fun a t => val_main_v11 (F := Ideal) x5 x6 x9 (ix4 b h a t)) = (headOf x0 x1 x2 x3 x4 x5 x6 x7 x8 x9 x10 b h).kdeq := by
    funext a t
    exact CachesAt.keyCache_apply x5 x6 x9 b h a t
  have ef : (fun j a => val_main_v13 (F := Ideal) x1 x3 (ix4 b h j a)) = withLast (headOf x0 x1 x2 x3 x4 x5 x6 x7 x8 x9 x10 b h).kfull (headOf x0 x1 x2 x3 x4 x5 x6 x7 x8 x9 x10 b h).kn := by
    funext j a
    exact CachesAt.keys_apply x1 x3 b h j a
  have e1 : (fun n => val_main_v28 (F := Ideal) x0 x1 x3 x5 x6 x9 (ix4 b h (0 : Fin 1) n))
      = softmax (scores (headOf x0 x1 x2 x3 x4 x5 x6 x7 x8 x9 x10 b h).q (headOf x0 x1 x2 x3 x4 x5 x6 x7 x8 x9 x10 b h).kdeq (withLast (headOf x0 x1 x2 x3 x4 x5 x6 x7 x8 x9 x10 b h).kfull (headOf x0 x1 x2 x3 x4 x5 x6 x7 x8 x9 x10 b h).kn)) := by
    funext n
    rw [AttendAt.softmax_apply]
    refine congrArg (fun l => softmax l n) (funext fun k => ?_)
    rw [LogitsAt.logits_apply, ek, ef]
    rfl
  have e2 : (fun t a => val_main_v38 (F := Ideal) x7 x8 x10 (ix4 b h t a)) = (headOf x0 x1 x2 x3 x4 x5 x6 x7 x8 x9 x10 b h).vdeq := by
    funext t a
    exact CachesAt.valueCache_apply x7 x8 x10 b h t a
  have e3 : (fun j a => val_main_v29 (F := Ideal) x2 x4 (ix4 b h j a)) = withLast (headOf x0 x1 x2 x3 x4 x5 x6 x7 x8 x9 x10 b h).vfull (headOf x0 x1 x2 x3 x4 x5 x6 x7 x8 x9 x10 b h).vn := by
    funext j a
    exact CachesAt.vals_apply x2 x4 b h j a
  rw [e1, e2, e3]
  rfl

/-- The reference's result array is the specification's `result` of the arguments. -/
theorem result_eq (x0 x1 x2 : (⟨S4x1x32x128, .f32⟩ : BufTy).Contents (Elt Ideal)) (x3 x4 : (⟨S4x32x64x128, .f32⟩ : BufTy).Contents (Elt Ideal))
    (x5 x6 : (⟨S4x32x128x62, .f32⟩ : BufTy).Contents (Elt Ideal)) (x7 x8 : (⟨S4x32x3968x2, .f32⟩ : BufTy).Contents (Elt Ideal))
    (x9 : (⟨S4x32x128x3968, .i32⟩ : BufTy).Contents (Elt Ideal)) (x10 : (⟨S4x32x3968x128, .i32⟩ : BufTy).Contents (Elt Ideal)) :
    val_main_v44 (F := Ideal) x0 x1 x2 x3 x4 x5 x6 x7 x8 x9 x10 = result x0 x1 x2 x3 x4 x5 x6 x7 x8 x9 x10 := by
  funext i
  rw [val_main_v44_apply]
  obtain ⟨b, z, h, d, rfl⟩ : ∃ (b : Fin 4) (z : Fin 1) (h : Fin 32) (d : Fin 128), i = ix4 b z h d :=
    ⟨i 0, i 1, i 2, i 3, eq_ix4 i⟩
  obtain rfl : z = 0 := Subsingleton.elim _ _
  have ei : idx_main_v44 (ix4 b (0 : Fin 1) h d) = ix4 b h (0 : Fin 1) d := funext fun a => Fin.ext (by
    match a with
    | ⟨0, _⟩ => rfl
    | ⟨1, _⟩ => rfl
    | ⟨2, _⟩ => rfl
    | ⟨3, _⟩ => rfl)
  rw [ei, head_apply]
  rfl

end Cert.ReferenceIdeal.RefValue

end
-- ==== Proof.lean ====
/-
  Single-query attention over a quantised key/value cache: the kernel against its plain reference.

  Both programs compute, for each of the 4 × 32 (batch, head) pairs, the same function of that pair's slice of the
  eleven argument arrays (Proof/AttnSpec.lean): dequantise the key cache (a code times its group's scale plus its
  group's offset), take the query's scores against the 3968 cache keys and against the 64 kept keys and the new key,
  scale the 4033 scores by one f32 word, take their softmax (subtract the largest, exponentiate, divide by the sum),
  and return the weights against the dequantised value cache plus the weights against the 64 kept values and the new
  value.  The kernel does this one pair per grid point on `[1, 1, ·, ·]` blocks; the reference does it for all pairs
  at once with batched contractions.  Read over the extended reals the two agree entry by entry: a matrix product
  into a zero accumulator and a batched contraction are the same finite sum, a row maximum is the same fold of `max`
  in any order, and the literals (the scale, `-∞`, zero) are the same words on both sides, so no value is ever
  evaluated and no finiteness is needed.  Nothing was rewritten when the kernel was idealised, so the preservation
  claim is trivial; the two kernel frames are the generated ones and the reference's frame is its generated run.

  Proof/KernelParts.lean cuts the kernel body into five pieces; KernelDequant, KernelLogits and KernelSoftmax read
  each piece at an index; KernelHead composes them; KernelRun carries the blocks to the result array.  RefCaches,
  RefLogits and RefAttend read the reference's stages at an index; RefValue composes them.
-/
import proofs.«180641_j77506979824107_1_alg».proof.Defs
import proofs.«180641_j77506979824107_1_alg».proof.Proof.Gen.Kernel
import proofs.«180641_j77506979824107_1_alg».proof.Proof.Gen.Kernel.Skeleton
import proofs.«180641_j77506979824107_1_alg».proof.Proof.Gen.Kernel.Launch
import proofs.«180641_j77506979824107_1_alg».proof.Proof.Gen.Kernel.Points
import proofs.«180641_j77506979824107_1_alg».proof.Proof.Gen.Kernel.Frame
import proofs.«180641_j77506979824107_1_alg».proof.Proof.Gen.KernelIdeal
import proofs.«180641_j77506979824107_1_alg».proof.Proof.Gen.KernelIdeal.Skeleton
import proofs.«180641_j77506979824107_1_alg».proof.Proof.Gen.KernelIdeal.Launch
import proofs.«180641_j77506979824107_1_alg».proof.Proof.Gen.KernelIdeal.Points
import proofs.«180641_j77506979824107_1_alg».proof.Proof.Gen.KernelIdeal.Frame
import proofs.«180641_j77506979824107_1_alg».proof.Proof.Gen.ReferenceIdeal
import proofs.«180641_j77506979824107_1_alg».proof.Proof.Gen.Pre_finite_inputs
import proofs.«180641_j77506979824107_1_alg».proof.Proof.Gen.ReferenceIdeal.Run
import proofs.«180641_j77506979824107_1_alg».proof.Proof.Gen.ReferenceIdeal.Read
import proofs.«180641_j77506979824107_1_alg».proof.Proof.KernelRun
import proofs.«180641_j77506979824107_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel's frame: the generated one. -/
theorem frame_kernel : Cert.frame_Kernel := fun m ρ _ => Cert.Kernel.Gen.frame m ρ

/-- The idealised kernel's frame: the generated one. -/
theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the specification's result of those arguments. -/
theorem algebraic : Cert.algebraic_KernelIdeal_ReferenceIdeal := by
  intro m ρ m' ρ' _ hagree
  refine ⟨fun c => Cert.KernelIdeal.RunValue.resultOf m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.result_eq]
  obtain ⟨h0, h1, h2, h3, h4, h5, h6, h7, h8, h9, h10⟩ := hagree c
  rw [h0, h1, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
